-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x262144 : Shape := ⟨3, ![4, 64, 262144]⟩
abbrev S4x262144 : Shape := ⟨2, ![4, 262144]⟩
abbrev S_ : Shape := ⟨0, ![]⟩

class Facts : Prop where
  bcast_S_S4x64x262144 : S_.BroadcastsInDim S4x64x262144 (![] : Fin 0 → Fin S4x64x262144.rank)
  reducesTo_S4x64x262144_S_d0_1_2 : S4x64x262144.ReducesTo [0, 1, 2] S_
  h_S_ : 0 < S_.numel
  bcast_S_S4x262144 : S_.BroadcastsInDim S4x262144 (![] : Fin 0 → Fin S4x262144.rank)
  reducesTo_S4x262144_S_d0_1 : S4x262144.ReducesTo [0, 1] S_

variable [Facts]

def fn {F : FTy → Type} [FloatOps F] (main_arg0 : FVec F S4x64x262144 .f32) (main_arg1 : IVec S4x262144 32) : IVec S_ 1 :=
  let main_v0 : FVec F S4x64x262144 .f32 := Host.absf main_arg0
  let main_cst : FVec F S_ .f32 := constant S_ .f32 0x7F800000#32
  let main_v1 : FVec F S4x64x262144 .f32 := broadcastInDim S4x64x262144 ![] bcast_S_S4x64x262144 main_cst
  let main_v2 : IVec S4x64x262144 1 := cmpf .olt main_v0 main_v1
  let main_c : IVec S_ 1 := constantI S_ 1 1#1
  let main_v3 : IVec S_ 1 := (fun x v => Host.reduce IntOp.andi x v reducesTo_S4x64x262144_S_d0_1_2 h_S_) main_v2 main_c
  let main_c_0 : IVec S_ 32 := constantI S_ 32 0#32
  let main_v4 : IVec S4x262144 32 := broadcastInDim S4x262144 ![] bcast_S_S4x262144 main_c_0
  let main_v5 : IVec S4x262144 1 := cmpi .sge main_arg1 main_v4
  let main_c_1 : IVec S_ 1 := constantI S_ 1 1#1
  let main_v6 : IVec S_ 1 := (fun x v => Host.reduce IntOp.andi x v reducesTo_S4x262144_S_d0_1 h_S_) main_v5 main_c_1
  let main_v7 : IVec S_ 1 := andi main_v3 main_v6
  let main_c_2 : IVec S_ 32 := constantI S_ 32 400#32
  let main_v8 : IVec S4x262144 32 := broadcastInDim S4x262144 ![] bcast_S_S4x262144 main_c_2
  let main_v9 : IVec S4x262144 1 := cmpi .slt main_arg1 main_v8
  let main_c_3 : IVec S_ 1 := constantI S_ 1 1#1
  let main_v10 : IVec S_ 1 := (fun x v => Host.reduce IntOp.andi x v reducesTo_S4x262144_S_d0_1 h_S_) main_v9 main_c_3
  let main_v11 : IVec S_ 1 := andi main_v7 main_v10
  main_v11
-- ==== Kernel.lean ====
abbrev S4x64x262144 : Shape := ⟨3, ![4, 64, 262144]⟩
abbrev S4x262144 : Shape := ⟨2, ![4, 262144]⟩
abbrev S4x1x262144 : Shape := ⟨3, ![4, 1, 262144]⟩
abbrev S2x4x64x512 : Shape := ⟨4, ![2, 4, 64, 512]⟩
abbrev S2x4x1x512 : Shape := ⟨4, ![2, 4, 1, 512]⟩
abbrev S4x64x2048 : Shape := ⟨3, ![4, 64, 2048]⟩
abbrev S4x1x2048 : Shape := ⟨3, ![4, 1, 2048]⟩
abbrev S1x4x64x512 : Shape := ⟨4, ![1, 4, 64, 512]⟩
abbrev S1x4x1x512 : Shape := ⟨4, ![1, 4, 1, 512]⟩
abbrev S4x64x512 : Shape := ⟨3, ![4, 64, 512]⟩
abbrev S4x1x512 : Shape := ⟨3, ![4, 1, 512]⟩
abbrev S4x2048 : Shape := ⟨2, ![4, 2048]⟩
abbrev S1x1x512 : Shape := ⟨3, ![1, 1, 512]⟩
abbrev S4x2048x1 : Shape := ⟨3, ![4, 2048, 1]⟩
abbrev S4x2048x512 : Shape := ⟨3, ![4, 2048, 512]⟩
abbrev S4x65x2048 : Shape := ⟨3, ![4, 65, 2048]⟩
abbrev S4x65x512 : Shape := ⟨3, ![4, 65, 512]⟩
abbrev S_ : Shape := ⟨0, ![]⟩
abbrev S4x128x512 : Shape := ⟨3, ![4, 128, 512]⟩
abbrev S4x128x2048 : Shape := ⟨3, ![4, 128, 2048]⟩

abbrev nBuf : Space → Nat
  | .hbm => 26
  | .vmem => 15
  | .smem => 0
  | _ => 0

abbrev bufTy : (tb : Table) → Fin (tcTables nBuf tb) → BufTy
  | .hbm, ⟨0, _⟩ => ⟨S4x64x262144, .f32⟩
  | .hbm, ⟨1, _⟩ => ⟨S4x262144, .i32⟩
  | .hbm, ⟨2, _⟩ => ⟨S4x1x262144, .i32⟩
  | .hbm, ⟨3, _⟩ => ⟨S2x4x64x512, .f32⟩
  | .hbm, ⟨4, _⟩ => ⟨S2x4x1x512, .f32⟩
  | .hbm, ⟨5, _⟩ => ⟨S1x4x64x512, .f32⟩
  | .hbm, ⟨6, _⟩ => ⟨S4x64x512, .f32⟩
  | .hbm, ⟨7, _⟩ => ⟨S1x4x64x512, .f32⟩
  | .hbm, ⟨8, _⟩ => ⟨S4x64x512, .f32⟩
  | .hbm, ⟨9, _⟩ => ⟨S4x64x512, .f32⟩
  | .hbm, ⟨10, _⟩ => ⟨S1x4x1x512, .f32⟩
  | .hbm, ⟨11, _⟩ => ⟨S4x1x512, .f32⟩
  | .hbm, ⟨12, _⟩ => ⟨S1x4x1x512, .f32⟩
  | .hbm, ⟨13, _⟩ => ⟨S4x1x512, .f32⟩
  | .hbm, ⟨14, _⟩ => ⟨S4x1x512, .f32⟩
  | .hbm, ⟨15, _⟩ => ⟨S_, .f32⟩
  | .hbm, ⟨16, _⟩ => ⟨S4x1x512, .f32⟩
  | .hbm, ⟨17, _⟩ => ⟨S4x1x512, .f32⟩
  | .hbm, ⟨18, _⟩ => ⟨S4x64x512, .f32⟩
  | .hbm, ⟨19, _⟩ => ⟨S4x64x512, .f32⟩
  | .hbm, ⟨20, _⟩ => ⟨S4x64x512, .bf16⟩
  | .hbm, ⟨21, _⟩ => ⟨S4x64x512, .f32⟩
  | .hbm, ⟨22, _⟩ => ⟨S4x64x512, .f32⟩
  | .hbm, ⟨23, _⟩ => ⟨S4x64x512, .bf16⟩
  | .hbm, ⟨24, _⟩ => ⟨S4x128x512, .bf16⟩
  | .hbm, ⟨25, _⟩ => ⟨S4x64x262144, .f32⟩
  | .local _ .vmem, ⟨0, _⟩ => ⟨S4x64x2048, .f32⟩
  | .local _ .vmem, ⟨1, _⟩ => ⟨S4x64x2048, .f32⟩
  | .local _ .vmem, ⟨2, _⟩ => ⟨S4x1x2048, .i32⟩
  | .local _ .vmem, ⟨3, _⟩ => ⟨S4x1x2048, .i32⟩
  | .local _ .vmem, ⟨4, _⟩ => ⟨S1x4x64x512, .f32⟩
  | .local _ .vmem, ⟨5, _⟩ => ⟨S1x4x64x512, .f32⟩
  | .local _ .vmem, ⟨6, _⟩ => ⟨S1x4x1x512, .f32⟩
  | .local _ .vmem, ⟨7, _⟩ => ⟨S1x4x1x512, .f32⟩
  | .local _ .vmem, ⟨8, _⟩ => ⟨S4x64x512, .f32⟩
  | .local _ .vmem, ⟨9, _⟩ => ⟨S4x1x512, .f32⟩
  | .local _ .vmem, ⟨10, _⟩ => ⟨S4x128x512, .bf16⟩
  | .local _ .vmem, ⟨11, _⟩ => ⟨S4x1x2048, .i32⟩
  | .local _ .vmem, ⟨12, _⟩ => ⟨S4x1x2048, .i32⟩
  | .local _ .vmem, ⟨13, _⟩ => ⟨S4x64x2048, .f32⟩
  | .local _ .vmem, ⟨14, _⟩ => ⟨S4x64x2048, .f32⟩
  | _, _ => ⟨S4x64x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v31 : BitVec 1 := Scalar.cmpi .eq arg1 c63_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S4x128x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x262144_S4x1x262144 : S4x262144.ShapeCasts S4x1x262144
  inb_S4x64x512_S4x64x512_0_0_0 : ∀ a, (![0, 0, 0] : Fin 3 → Nat) a + S4x64x512.size a ≤ S4x64x512.size a
  h_S4x64x512 : 0 < S4x64x512.numel
  shapeCasts_S4x64x512_S4x64x512 : S4x64x512.ShapeCasts S4x64x512
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  inb_S4x64x2048_S4x64x2048_0_0_0 : ∀ a, (![0, 0, 0] : Fin 3 → Nat) a + S4x64x2048.size a ≤ S4x64x2048.size a
  h_S4x64x2048 : 0 < S4x64x2048.numel
  inb_S4x1x2048_S4x1x2048_0_0_0 : ∀ a, (![0, 0, 0] : Fin 3 → Nat) a + S4x1x2048.size a ≤ S4x1x2048.size a
  h_S4x1x2048 : 0 < S4x1x2048.numel
  shapeCasts_S4x1x2048_S4x1x2048 : S4x1x2048.ShapeCasts S4x1x2048
  shapeCasts_S4x1x2048_S4x2048 : S4x1x2048.ShapeCasts S4x2048
  iota_S1x1x512_d2_w32 : S1x1x512.Iotas .tc 32 [2]
  shapeCasts_S4x2048_S4x2048x1 : S4x2048.ShapeCasts S4x2048x1
  broadcasts_S4x2048x1_S4x2048x512 : S4x2048x1.Broadcasts S4x2048x512
  broadcasts_S1x1x512_S4x2048x512 : S1x1x512.Broadcasts S4x2048x512
  natLt_1_32 : 1 < 32
  bitsLt_bf16_f32 : FTy.bits .bf16 < FTy.bits .f32
  concatenates_S4x64x2048_S4x1x2048_S4x65x2048_d1 : Shape.Concatenates [S4x64x2048, S4x1x2048] S4x65x2048 1
  slices_S4x65x512_o0_0_0_S4x64x512 : S4x65x512.Slices ![0, 0, 0] S4x64x512
  slices_S4x65x512_o0_64_0_S4x1x512 : S4x65x512.Slices ![0, 64, 0] S4x1x512
  inb_S1x4x64x512_S1x4x64x512_0_0_0_0 : ∀ a, (![0, 0, 0, 0] : Fin 4 → Nat) a + S1x4x64x512.size a ≤ S1x4x64x512.size a
  h_S1x4x64x512 : 0 < S1x4x64x512.numel
  shapeCasts_S1x4x64x512_S4x64x512 : S1x4x64x512.ShapeCasts S4x64x512
  shapeCasts_S4x64x512_S1x4x64x512 : S4x64x512.ShapeCasts S1x4x64x512
  inb_S1x4x1x512_S1x4x1x512_0_0_0_0 : ∀ a, (![0, 0, 0, 0] : Fin 4 → Nat) a + S1x4x1x512.size a ≤ S1x4x1x512.size a
  h_S1x4x1x512 : 0 < S1x4x1x512.numel
  shapeCasts_S1x4x1x512_S4x1x512 : S1x4x1x512.ShapeCasts S4x1x512
  shapeCasts_S4x1x512_S1x4x1x512 : S4x1x512.ShapeCasts S1x4x1x512
  slices_S2x4x64x512_S1x4x64x512_0_0_0_0 : S2x4x64x512.Slices ![0, 0, 0, 0] S1x4x64x512
  slices_S2x4x64x512_S1x4x64x512_1_0_0_0 : S2x4x64x512.Slices ![1, 0, 0, 0] S1x4x64x512
  slices_S2x4x1x512_S1x4x1x512_0_0_0_0 : S2x4x1x512.Slices ![0, 0, 0, 0] S1x4x1x512
  slices_S2x4x1x512_S1x4x1x512_1_0_0_0 : S2x4x1x512.Slices ![1, 0, 0, 0] S1x4x1x512
  bcast_S_S4x1x512 : S_.BroadcastsInDim S4x1x512 (![] : Fin 0 → Fin S4x1x512.rank)
  bcast_S4x1x512_S4x64x512_0_1_2 : S4x1x512.BroadcastsInDim S4x64x512 (![0, 1, 2] : Fin 3 → Fin S4x64x512.rank)
  concatenates_S4x64x512_S4x64x512_S4x128x512_d1 : Shape.Concatenates [S4x64x512, S4x64x512] S4x128x512 1
  inb_S4x128x512_S4x128x512_0_0_0 : ∀ a, (![0, 0, 0] : Fin 3 → Nat) a + S4x128x512.size a ≤ S4x128x512.size a
  h_S4x128x512 : 0 < S4x128x512.numel
  shapeCasts_S4x128x512_S4x128x512 : S4x128x512.ShapeCasts S4x128x512
  slices_S4x128x2048_o0_0_0_S4x64x2048 : S4x128x2048.Slices ![0, 0, 0] S4x64x2048
  slices_S4x128x2048_o0_64_0_S4x64x2048 : S4x128x2048.Slices ![0, 64, 0] S4x64x2048
  dot_S4x65x2048_S4x2048x512_S4x65x512_2_1_1_2_0_0_wf : DotDims.WF S4x65x2048 S4x2048x512 S4x65x512 [2] [1] [1] [2] [0] [0]
  dot_S4x128x512_S4x2048x512_S4x128x2048_2_2_1_1_0_0_wf : DotDims.WF S4x128x512 S4x2048x512 S4x128x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x2048.size a ≤ S4x64x262144.size a
  hwx0_0 : ∀ i : grid0.Coords, EltTy.bits .f32 = 32 ∨ (Rect.block (s := S4x64x262144) S4x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x2048.size a ≤ S4x1x262144.size a
  hwx0_1 : ∀ i : grid0.Coords, EltTy.bits .i32 = 32 ∨ (Rect.block (s := S4x1x262144) S4x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64x512.size a ≤ S2x4x64x512.size a
  hwx0_2 : ∀ i : grid0.Coords, EltTy.bits .f32 = 32 ∨ (Rect.block (s := S2x4x64x512) S1x4x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1x512.size a ≤ S2x4x1x512.size a
  hwx0_3 : ∀ i : grid0.Coords, EltTy.bits .f32 = 32 ∨ (Rect.block (s := S2x4x1x512) S1x4x1x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x128x512.size a ≤ S4x128x512.size a
  hwx1_0 : ∀ i : grid1.Coords, EltTy.bits .bf16 = 32 ∨ (Rect.block (s := S4x128x512) S4x128x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1x2048.size a ≤ S4x1x262144.size a
  hwx1_1 : ∀ i : grid1.Coords, EltTy.bits .i32 = 32 ∨ (Rect.block (s := S4x1x262144) S4x1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x64x2048.size a ≤ S4x64x262144.size a
  hwx1_2 : ∀ i : grid1.Coords, EltTy.bits .f32 = 32 ∨ (Rect.block (s := S4x64x262144) S4x64x2048.size (cc1_transform_2 i) (hinb1_2 i)).WholeWords (EltTy.packing .f32)

variable [Facts₀]

def dot_S4x65x2048_S4x2048x512_S4x65x512_2_1_1_2_0_0 : DotDims S4x65x2048 S4x2048x512 S4x65x512 where
  lhsContracting := [2]
  rhsContracting := [1]
  lhsNonContracting := [1]
  rhsNonContracting := [2]
  lhsBatch := [0]
  rhsBatch := [0]
  wf := dot_S4x65x2048_S4x2048x512_S4x65x512_2_1_1_2_0_0_wf
def dot_S4x128x512_S4x2048x512_S4x128x2048_2_2_1_1_0_0 : DotDims S4x128x512 S4x2048x512 S4x128x2048 where
  lhsContracting := [2]
  rhsContracting := [2]
  lhsNonContracting := [1]
  rhsNonContracting := [1]
  lhsBatch := [0]
  rhsBatch := [0]
  wf := dot_S4x128x512_S4x2048x512_S4x128x2048_2_2_1_1_0_0_wf

abbrev win0_0 : Pipeline.Window sig grid0 :=
  Pipeline.Window.ofSpec (Memref.whole main_arg0) S4x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x4x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v20) S4x128x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4x64x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x262144 : Shape := ⟨3, ![4, 64, 262144]⟩
abbrev S4x262144 : Shape := ⟨2, ![4, 262144]⟩
abbrev S4 : Shape := ⟨1, ![4]⟩
abbrev S4x1 : Shape := ⟨2, ![4, 1]⟩
abbrev S_ : Shape := ⟨0, ![]⟩
abbrev S1048576 : Shape := ⟨1, ![1048576]⟩
abbrev S4x262144x64 : Shape := ⟨3, ![4, 262144, 64]⟩
abbrev S1048576x64 : Shape := ⟨2, ![1048576, 64]⟩
abbrev S1600x64 : Shape := ⟨2, ![1600, 64]⟩
abbrev S1048576x1 : Shape := ⟨2, ![1048576, 1]⟩
abbrev S1600 : Shape := ⟨1, ![1600]⟩
abbrev S1600x1 : Shape := ⟨2, ![1600, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x64x262144, .f32⟩
  | .hbm, ⟨1, _⟩ => ⟨S4x262144, .i32⟩
  | .hbm, ⟨2, _⟩ => ⟨S4, .i32⟩
  | .hbm, ⟨3, _⟩ => ⟨S4x1, .i32⟩
  | .hbm, ⟨4, _⟩ => ⟨S_, .i32⟩
  | .hbm, ⟨5, _⟩ => ⟨S4x1, .i32⟩
  | .hbm, ⟨6, _⟩ => ⟨S4x1, .i32⟩
  | .hbm, ⟨7, _⟩ => ⟨S4x262144, .i32⟩
  | .hbm, ⟨8, _⟩ => ⟨S4x262144, .i32⟩
  | .hbm, ⟨9, _⟩ => ⟨S1048576, .i32⟩
  | .hbm, ⟨10, _⟩ => ⟨S4x262144x64, .f32⟩
  | .hbm, ⟨11, _⟩ => ⟨S1048576x64, .f32⟩
  | .hbm, ⟨12, _⟩ => ⟨S_, .f32⟩
  | .hbm, ⟨13, _⟩ => ⟨S1600x64, .f32⟩
  | .hbm, ⟨14, _⟩ => ⟨S1048576x1, .i32⟩
  | .hbm, ⟨15, _⟩ => ⟨S1600x64, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S1600, .f32⟩
  | .hbm, ⟨20, _⟩ => ⟨S1048576x1, .i32⟩
  | .hbm, ⟨21, _⟩ => ⟨S1600, .f32⟩
  | .hbm, ⟨22, _⟩ => ⟨S_, .f32⟩
  | .hbm, ⟨23, _⟩ => ⟨S1600, .f32⟩
  | .hbm, ⟨24, _⟩ => ⟨S1600, .f32⟩
  | .hbm, ⟨25, _⟩ => ⟨S1600x1, .f32⟩
  | .hbm, ⟨26, _⟩ => ⟨S1600x64, .f32⟩
  | .hbm, ⟨27, _⟩ => ⟨S1600x64, .f32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S1048576x64, .f32⟩
  | .hbm, ⟨37, _⟩ => ⟨S4x262144x64, .f32⟩
  | .hbm, ⟨38, _⟩ => ⟨S4x64x262144, .f32⟩
  | _, _ => ⟨S4x64x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  bcast_S_S4x1 : S_.BroadcastsInDim S4x1 (![] : Fin 0 → Fin S4x1.rank)
  bcast_S4x1_S4x262144_0_1 : S4x1.BroadcastsInDim S4x262144 (![0, 1] : Fin 2 → Fin S4x262144.rank)
  shapeCasts_S4x262144_S1048576 : S4x262144.ShapeCasts S1048576
  transposes_S4x64x262144_S4x262144x64_0_2_1 : S4x64x262144.Transposes [0, 2, 1] S4x262144x64
  shapeCasts_S4x262144x64_S1048576x64 : S4x262144x64.ShapeCasts S1048576x64
  bcast_S_S1600x64 : S_.BroadcastsInDim S1600x64 (![] : Fin 0 → Fin S1600x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x64_0_1 : S1600x1.BroadcastsInDim S1600x64 (![0, 1] : Fin 2 → Fin S1600x64.rank)
  shapeCasts_S1048576x64_S4x262144x64 : S1048576x64.ShapeCasts S4x262144x64
  transposes_S4x262144x64_S4x64x262144_0_2_1 : S4x262144x64.Transposes [0, 2, 1] S4x64x262144
  scatter_S1600x64_S1048576x1_S1048576x64_1_0_0_1_wf : ScatterDims.WF S1600x64 S1048576x1 S1048576x64 [1] [0] [0] 1
  scatter_S1600_S1048576x1_S1048576_n_0_0_1_wf : ScatterDims.WF S1600 S1048576x1 S1048576 [] [0] [0] 1
  gather_S1600x64_S1048576x1_S1048576x64_1_0_n_n_0_1_164_wf : GatherDims.WF S1600x64 S1048576x1 S1048576x64 [1] [0] [] [0] [] 1 ![1, 64]

variable [Facts₀]

def scatter_S1600x64_S1048576x1_S1048576x64_1_0_0_1 : ScatterDims S1600x64 S1048576x1 S1048576x64 where
  updateWindowDims := [1]
  insertedWindowDims := [0]
  scatterDimsToOperandDims := [0]
  indexVectorDim := 1
  wf := scatter_S1600x64_S1048576x1_S1048576x64_1_0_0_1_wf
def scatter_S1600_S1048576x1_S1048576_n_0_0_1 : ScatterDims S1600 S1048576x1 S1048576 where
  updateWindowDims := []
  insertedWindowDims := [0]
  scatterDimsToOperandDims := [0]
  indexVectorDim := 1
  wf := scatter_S1600_S1048576x1_S1048576_n_0_0_1_wf
def gather_S1600x64_S1048576x1_S1048576x64_1_0_n_n_0_1_164 : GatherDims S1600x64 S1048576x1 S1048576x64 where
  offsetDims := [1]
  collapsedSliceDims := [0]
  operandBatchingDims := []
  startIndicesBatchingDims := []
  startIndexMap := [0]
  indexVectorDim := 1
  sliceSizes := ![1, 64]
  wf := gather_S1600x64_S1048576x1_S1048576x64_1_0_n_n_0_1_164_wf

class Facts : Prop extends Facts₀ where

variable [Facts]
-- ==== Proof.KR0Base.lean ====
/-
  The reduce region's grid, read once: its 128 points are 2 halves of 64 steps; a step resets the two scratch
  accumulators when it is the first of its half and stores them to the two output blocks when it is the last, and
  the outputs are idle (nothing stored, nothing written back) at every other step. Also the blocks of the two
  input windows at a point, as the region finds their arrays, and the names of the buffers the body is run on.
-/
import proofs.«415683_j86517821214971_3_alg».proof.Proof.Gen.Kernel.Launch
import proofs.«415683_j86517821214971_3_alg».proof.Proof.Gen.Kernel.Skeleton
import proofs.«415683_j86517821214971_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block, whether this point fetched it or an earlier one did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the cell numbers' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first step of its half": the reset's condition, as the body computes it from the inner coordinate. -/
abbrev cond0_0 (i : grid0.Coords) : Prop := (Scalar.cmpi .ne (Scalar.extui (Scalar.cmpi .eq (BitVec.ofNat 32 (i 1).val) 0#32)) 0#32) = 1#1
/-- It holds at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last step of its half": the condition under which the accumulators are stored to the outputs. -/
abbrev cond0_1 (i : grid0.Coords) : Prop := k0_cond2 i = 1#1
/-- It holds at the points that are 63 modulo 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step of a half both outputs are idle and are not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On the last step of a half both are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The buffers the body is run on -/

/-- One staging buffer of each output window, through which its contents are stated. -/
abbrev VO0_2 : View sig .tc .vmem S1x4x64x512 .f32 := (Memref.whole cc0_stg2_0 : Memref sig .tc .vmem S1x4x64x512 .f32).view
abbrev VO0_3 : View sig .tc .vmem S1x4x1x512 .f32 := (Memref.whole cc0_stg3_0 : Memref sig .tc .vmem S1x4x1x512 .f32).view
/-- Each window's current staging memref at point t, as the pipeline passes it, and its wholeness. -/
abbrev ms0_0 (t : Fin cfg0.N) : Memref sig .tc .vmem S4x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1x512 .f32 := win0_3.stage (cfg0.slots t 3)
abbrev hs0_3 (t : Fin cfg0.N) : (ms0_3 t).IsWhole := hstage0_3 ((cfg0.slots t 3).cast nbuf0_3)
/-- The two scratch accumulators: whole scoped buffers of the kernel's own. -/
abbrev scM0_0 : Memref sig .tc .vmem S4x64x512 .f32 := Memref.whole cc0_scratch0
abbrev scM0_1 : Memref sig .tc .vmem S4x1x512 .f32 := Memref.whole cc0_scratch1
abbrev VS0_0 : View sig .tc .vmem S4x64x512 .f32 := scM0_0.view
abbrev VS0_1 : View sig .tc .vmem S4x1x512 .f32 := scM0_1.view

/-- The other region's staging buffers, each whole at some contents: scoped buffers this region never touches. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's plain invariant, spelt out: the two scratch accumulators owned at some contents, the other
    region's staging buffers at some contents, the generator register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.Kernel.Fr

end
-- ==== Proof.KR0RunA.lean ====
/-
  The reduce kernel's body at the FIRST step of a half that is not its last: both scratch accumulators are reset to
  zero and the tile's share is added; nothing is stored to the output blocks.
-/
import proofs.«415683_j86517821214971_3_alg».proof.Proof.KR0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at the FIRST step of a half that is not its last: both scratch accumulators are reset to The lists are the pieces the body's stores leave in each buffer it writes, last first:
    they are found by running the body, and the statement says that on whole buffers the body runs to its end. -/
noncomputable def kernelRun0_A (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) :
    Σ' (LS0 : List (View.Piece (Elt F) S4x64x512 .f32)), { LS1 : List (View.Piece (Elt F) S4x1x512 .f32) //
      ∀ (xi2 : Vec F S1x4x64x512 .f32) (xi3 : Vec F S1x4x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun xi2 xi3 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KR0RunB.lean ====
/-
  The reduce kernel's body at a step that is neither the first nor the last of its half: the tile's share is added
  to what the two scratch accumulators hold; nothing is stored to the output blocks.
-/
import proofs.«415683_j86517821214971_3_alg».proof.Proof.KR0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at a step that is neither the first nor the last of its half: the tile's share is added The lists are the pieces the body's stores leave in each buffer it writes, last first:
    they are found by running the body, and the statement says that on whole buffers the body runs to its end. -/
noncomputable def kernelRun0_B (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) :
    Σ' (LS0 : List (View.Piece (Elt F) S4x64x512 .f32)), { LS1 : List (View.Piece (Elt F) S4x1x512 .f32) //
      ∀ (xi2 : Vec F S1x4x64x512 .f32) (xi3 : Vec F S1x4x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun xi2 xi3 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KR0RunC.lean ====
/-
  The reduce kernel's body at the LAST step of a half: the tile's share is added to what the two scratch
  accumulators hold, and the accumulators are then stored to the two output blocks.
-/
import proofs.«415683_j86517821214971_3_alg».proof.Proof.KR0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at the LAST step of a half: the tile's share is added to what the two scratch The lists are the pieces the body's stores leave in each buffer it writes, last first:
    they are found by running the body, and the statement says that on whole buffers the body runs to its end. -/
noncomputable def kernelRun0_C (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    Σ' (L2 : List (View.Piece (Elt F) S1x4x64x512 .f32)) (L3 : List (View.Piece (Elt F) S1x4x1x512 .f32)) (LS0 : List (View.Piece (Elt F) S4x64x512 .f32)), { LS1 : List (View.Piece (Elt F) S4x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.KR0.lean ====
/-
  The reduce region's half of the frame, at any contents V of the core's buffers when the region is entered.
  What the two scratch accumulators and the two output blocks hold after each of the 128 points, by recursion on
  the point: the first step of a half starts from the reset, every other step from what the step before left, and
  the last step of a half also fills the output blocks. The region's invariant carries the two accumulators at
  exactly those contents from one point to the next; with it, the proof data and the body obligation.
-/
import proofs.«415683_j86517821214971_3_alg».proof.Proof.KR0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

/-- At the first step of a half the stores into the sums' accumulator cover it. -/
theorem scover0_A_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) (y : S4x64x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S4x64x512.size (by sl_kernel_rfl) y
/-- And those into the counts' accumulator cover it. -/
theorem scover0_A_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) (y : S4x1x512.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x1x512.size (by sl_kernel_rfl) y
/-- What the first step of a half leaves in the sums' accumulator: its stores read back. -/
def sout0_A_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) : Vec F S4x64x512 .f32 :=
  VS0_0.read (Elt F) (VS0_0.writes (Elt F) VS0_0.junk (kernelRun0_A c i arg2 harg2 arg3 harg3 arg4 harg4 arg5 harg5 arg6 harg6 arg7 harg7 hc0 hc1 x0 x1).1)
/-- What it leaves in the counts' accumulator. -/
def sout0_A_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) : Vec F S4x1x512 .f32 :=
  VS0_1.read (Elt F) (VS0_1.writes (Elt F) VS0_1.junk (kernelRun0_A c i arg2 harg2 arg3 harg3 arg4 harg4 arg5 harg5 arg6 harg6 arg7 harg7 hc0 hc1 x0 x1).2.1)
/-- At a middle step the store into the sums' accumulator covers it. -/
theorem scover0_B_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) (y : S4x64x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S4x64x512.size (by sl_kernel_rfl) y
/-- And the one into the counts' accumulator covers it. -/
theorem scover0_B_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) (y : S4x1x512.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S4x1x512.size (by sl_kernel_rfl) y
/-- What a middle step leaves in the sums' accumulator, over what the step before left. -/
def sout0_B_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) : Vec F S4x64x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- What it leaves in the counts' accumulator. -/
def sout0_B_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) : Vec F S4x1x512 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
/-- At the last step of a half the store into the sums' output block covers it. -/
theorem cover0_C_2 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S1x4x64x512.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x4x64x512.size (by sl_kernel_rfl) y
/-- And the one into the counts' output block covers it. -/
theorem cover0_C_3 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S1x4x1x512.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x4x1x512.size (by sl_kernel_rfl) y
/-- The store into the sums' accumulator covers it. -/
theorem scover0_C_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S4x64x512.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S4x64x512.size (by sl_kernel_rfl) y
/-- The store into the counts' accumulator covers it. -/
theorem scover0_C_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S4x1x512.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S4x1x512.size (by sl_kernel_rfl) y
/-- What the last step of a half leaves in the sums' output block. -/
def out0_C_2 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S1x4x64x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
/-- What it leaves in the counts' output block. -/
def out0_C_3 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S1x4x1x512 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
/-- What it leaves in the sums' accumulator. -/
def sout0_C_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S4x64x512 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- What it leaves in the counts' accumulator. -/
def sout0_C_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S4x1x512 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- THE ACCUMULATION. After the body at position n: the sums' and the counts' output blocks (a placeholder where the
    step stores nothing into them: nothing reads it) and the sums' and the counts' accumulators. The first step of a
    half is run from the reset, every other step over what the step before left in the accumulators. -/
def outsAt0 (c : Dev nD) : (n : ℕ) → n < cfg0.N → Vec F S1x4x64x512 .f32 × Vec F S1x4x1x512 .f32 × Vec F S4x64x512 .f32 × Vec F S4x1x512 .f32
  | 0, hn => ((VO0_2.read (Elt F) VO0_2.junk), (VO0_3.read (Elt F) VO0_3.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 64 = 0 then
      if h1 : (n + 1) % 64 = 63 then
        False.elim (by omega)
      else
        ((VO0_2.read (Elt F) VO0_2.junk), (VO0_3.read (Elt F) VO0_3.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 64 = 63 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        ((VO0_2.read (Elt F) VO0_2.junk), (VO0_3.read (Elt F) VO0_3.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- At the first step of a half: the reset case's contents. -/
theorem outsAt0_A (c : Dev nD) (t : Fin cfg0.N) (h0 : t.val % 64 = 0) (h1 : ¬t.val % 64 = 63) :
    outsAt0 V c t.val t.isLt = ((VO0_2.read (Elt F) VO0_2.junk), (VO0_3.read (Elt F) VO0_3.junk), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step: that step's contents, over what the step before left. -/
theorem outsAt0_B (c : Dev nD) (t : Fin cfg0.N) (h0 : ¬t.val % 64 = 0) (h1 : ¬t.val % 64 = 63) :
    outsAt0 V c t.val t.isLt = ((VO0_2.read (Elt F) VO0_2.junk), (VO0_3.read (Elt F) VO0_3.junk), sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last step of a half: that step's contents, over what the step before left. -/
theorem outsAt0_C (c : Dev nD) (t : Fin cfg0.N) (h0 : ¬t.val % 64 = 0) (h1 : t.val % 64 = 63) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

/-- Before position n: at the first point the region's plain invariant (the accumulators at anything); afterwards
    the two accumulators at what the point before left in them, the other scoped buffers at anything, the generator
    register at some state. -/
def PhiS (c : Dev nD) : (n : ℕ) → n ≤ cfg0.N → sProp 𝕄
  | 0, _ => Pipeline.ΦA spec0 c
  | n + 1, hn => iprop((owns (c : Thread nD τ) scM0_0 fullShare ((outsAt0 V c n hn).2.2.1) ∗ owns (c : Thread nD τ) scM0_1 fullShare ((outsAt0 V c n hn).2.2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0_0 fullShare ((outsAt0 V c n hn).2.2.1) ∗ owns (c : Thread nD τ) scM0_1 fullShare ((outsAt0 V c n hn).2.2.2) ∗ restS (F := F) c) ∗ (∃ r, prngReg c r)) := rfl

theorem PhiS_pos (c : Dev nD) (n : ℕ) (h : n ≤ cfg0.N) (hz : n ≠ 0) :
    PhiS V c n h = iprop((owns (c : Thread nD τ) scM0_0 fullShare ((outsAt0 V c (n - 1) (by omega)).2.2.1) ∗ owns (c : Thread nD τ) scM0_1 fullShare ((outsAt0 V c (n - 1) (by omega)).2.2.2) ∗ restS (F := F) c) ∗ (∃ r, prngReg c r)) := by
  cases n with
  | zero => exact absurd rfl hz
  | succ n => rfl

/-! ## The proof data -/

/-- The arrays as the region finds them; after the body at point t each input's buffer at its block and the outputs'
    at the accumulation's components; the invariant carrying the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which of the three cases the
    point is in; the invariant hands the body the two accumulators at what the point before left (at anything before
    the very first point, and the reset does not read them) and takes them back at this point's contents; an output
    block the step does not store into is handed back as it was found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases h0 : t.val % 64 = 0
  · by_cases h1 : t.val % 64 = 63
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 64 = 63
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Fr

end
-- ==== Proof.KR1.lean ====
/-
  The gather region's half of the frame, at any contents V of the core's buffers when the region is entered:
  each window's block at a grid point, what the body leaves in the output block, the body's triple, the proof data
  and the body obligation. The body loads the table block and the cell numbers' block whole and stores the output
  block whole, so every point is alike and the region's invariant is the scoped rest and the generator register.
-/
import proofs.«415683_j86517821214971_3_alg».proof.Proof.Gen.Kernel.Launch
import proofs.«415683_j86517821214971_3_alg».proof.Proof.Gen.Kernel.Skeleton
import proofs.«415683_j86517821214971_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's current staging buffer holds the table block at every point, fetched there or not, for any proof
    data whose array is V's and whose body leaves the block in place: where the window is not fetched its block
    index has not moved since the point before, so the block kept is the block of this point. The window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the cell numbers' window, which is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole table block [4,128,512], the rectangle the body loads from window 0's buffer. -/
abbrev r1_tab : Rect S4x128x512 := Rect.unit (s := S4x128x512) ![0, 0, 0] S4x128x512.size inb_S4x128x512_S4x128x512_0_0_0
/-- The whole block of cell numbers [4,1,2048], the rectangle the body loads from window 1's buffer. -/
abbrev r1_idx : Rect S4x1x2048 := Rect.unit (s := S4x1x2048) ![0, 0, 0] S4x1x2048.size inb_S4x1x2048_S4x1x2048_0_0_0
/-- The whole output block [4,64,2048], the rectangle the body's one store writes in window 2's buffer. -/
abbrev r1_out : Rect S4x64x2048 := Rect.unit (s := S4x64x2048) ![0, 0, 0] S4x64x2048.size inb_S4x64x2048_S4x64x2048_0_0_0

/-- The output buffer after the body, from the table block x0 and the cell numbers' block x1: its one store, of the
    payload at the two blocks as loaded whole, laid over the buffer. -/
def out1_2 (x0 : Vec F S4x128x512 .bf16) (x1 : Vec F S4x1x2048 .i32) : Vec F S4x64x2048 .f32 :=
  View.canon [⟨r1_out, k1_pay1 (View.ld x1 r1_idx) (View.ld x0 r1_tab)⟩]

/-- The one store's rectangle is the whole buffer, so every index of the buffer lies in it. -/
theorem cover1_2 (p0 : Vec F S4x64x2048 .f32) (y : S4x64x2048.Idx) :
    ∃ pc ∈ ([⟨r1_out, p0⟩] : List (View.Piece (Elt F) S4x64x2048 .f32)), y ∈ pc.1.set :=
  View.cover_of_tiled [⟨r1_out, p0⟩] S4x64x2048.size (by rfl) y

set_option maxHeartbeats 1000000 in
/-- The gather body on whole staging memrefs: with the table's at x0, the cell numbers' at x1 and the output's at
    anything, it runs to the continuation with the two inputs as they were and the output at out1_2 x0 x1. It loads
    the cell numbers, the table and (to no use) the output buffer, and stores the payload over the whole output. -/
theorem sound_kernel1 (c : Dev nD) (E : Set ℕ) (arg1 : Memref sig .tc .vmem S4x128x512 .bf16) (harg1 : arg1.IsWhole) (arg2 : Memref sig .tc .vmem S4x1x2048 .i32) (harg2 : arg2.IsWhole) (arg3 : Memref sig .tc .vmem S4x64x2048 .f32) (harg3 : arg3.IsWhole)
    (i : grid1.Coords) (x0 : Vec F S4x128x512 .bf16) (x1 : Vec F S4x1x2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the gather pipeline on core c: the arrays as the region finds them (V); after the body at
    point t each input's buffer at its block and the output's at out1_2 of the two input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents on entry to the region. -/
theorem A_eq1 (c : Dev nD) (w : Fin cfg1.W) : (dat1 V c).A w = V c (Pipeline.arrRef spec1 w) := by
  dsimp only [dat1]

/-- What the body leaves in the table's buffer: the table block. -/
theorem after1_0 (c : Dev nD) (t : Fin cfg1.N) : (dat1 V c).after 0 t = iblk1 V c 0 t := by dsimp only [dat1]
/-- What the body leaves in the cell numbers' buffer: their block. -/
theorem after1_1 (c : Dev nD) (t : Fin cfg1.N) : (dat1 V c).after 1 t = iblk1 V c 1 t := by dsimp only [dat1]
/-- What the body leaves in the output's buffer: out1_2 of the two input blocks. -/
theorem after1_2 (c : Dev nD) (t : Fin cfg1.N) : (dat1 V c).after 2 t = out1_2 (iblk1 V c 0 t) (iblk1 V c 1 t) := by dsimp only [dat1]

/-- The table's current staging buffer holds the table block at every point, fetched there or not. -/
theorem before1_0 (c : Dev nD) (t : Fin cfg1.N) (d) : (dat1 V c).before 0 t d = iblk1 V c 0 t :=
  before1_0_of V (dat1 V c) (A_eq1 V c 0) (after1_0 V c) t d
/-- The cell numbers' current staging buffer holds their block at every point. -/
theorem before1_1 (c : Dev nD) (t : Fin cfg1.N) (d) : (dat1 V c).before 1 t d = iblk1 V c 1 t :=
  before1_1_of V (dat1 V c) (A_eq1 V c 1) (after1_1 V c) t d

/-- What the body is called with at point t: the invariant, what the core owes, and each window's current staging
    buffer owned whole, at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns at point t: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the gather pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRun.lean ====
/-
  The whole run of the program: a reshape of the cell numbers, the reduce region, twenty host operations that turn
  the two halves' partial sums and counts into the table of means, the gather region. The core's buffer contents at
  the five boundaries between these are named one from the other, from the launch memory; each region enters from the
  boundary before it and leaves the one after it; and every weakly fair execution ends with every unscoped buffer at
  the last boundary's contents, in particular the two arguments as launched and the result at what the gather
  region's write-backs leave.
-/
import proofs.«415683_j86517821214971_3_alg».proof.Proof.KR0
import proofs.«415683_j86517821214971_3_alg».proof.Proof.KR1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the reshape (the reduce region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the twenty host operations (the gather region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, with the
    result buffer at the last boundary's contents and the two arguments as launched. -/
theorem run_main : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v21 (by decide)),
       (h c _ (mem_uc main_arg0 (by decide))).trans (W4_main_arg0 m c),
       (h c _ (mem_uc main_arg1 (by decide))).trans (W4_main_arg1 m c)⟩)

end Cert.Kernel.Fr

end
-- ==== Proof.R0Base.lean ====
/-
  The reduce region's grid, read once: its 128 points are 2 halves of 64 steps; a step resets the two scratch
  accumulators when it is the first of its half and stores them to the two output blocks when it is the last, and
  the outputs are idle (nothing stored, nothing written back) at every other step. Also the blocks of the two
  input windows at a point, as the region finds their arrays, and the names of the buffers the body is run on.
-/
import proofs.«415683_j86517821214971_3_alg».proof.Proof.Gen.KernelIdeal.Launch
import proofs.«415683_j86517821214971_3_alg».proof.Proof.Gen.KernelIdeal.Skeleton
import proofs.«415683_j86517821214971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block, whether this point fetched it or an earlier one did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the cell numbers' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first step of its half": the reset's condition, as the body computes it from the inner coordinate. -/
abbrev cond0_0 (i : grid0.Coords) : Prop := (Scalar.cmpi .ne (Scalar.extui (Scalar.cmpi .eq (BitVec.ofNat 32 (i 1).val) 0#32)) 0#32) = 1#1
/-- It holds at the points that are multiples of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last step of its half": the condition under which the accumulators are stored to the outputs. -/
abbrev cond0_1 (i : grid0.Coords) : Prop := k0_cond2 i = 1#1
/-- It holds at the points that are 63 modulo 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step of a half both outputs are idle and are not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- On the last step of a half both are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The buffers the body is run on -/

/-- One staging buffer of each output window, through which its contents are stated. -/
abbrev VO0_2 : View sig .tc .vmem S1x4x64x512 .f32 := (Memref.whole cc0_stg2_0 : Memref sig .tc .vmem S1x4x64x512 .f32).view
abbrev VO0_3 : View sig .tc .vmem S1x4x1x512 .f32 := (Memref.whole cc0_stg3_0 : Memref sig .tc .vmem S1x4x1x512 .f32).view
/-- Each window's current staging memref at point t, as the pipeline passes it, and its wholeness. -/
abbrev ms0_0 (t : Fin cfg0.N) : Memref sig .tc .vmem S4x64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1x512 .f32 := win0_3.stage (cfg0.slots t 3)
abbrev hs0_3 (t : Fin cfg0.N) : (ms0_3 t).IsWhole := hstage0_3 ((cfg0.slots t 3).cast nbuf0_3)
/-- The two scratch accumulators: whole scoped buffers of the kernel's own. -/
abbrev scM0_0 : Memref sig .tc .vmem S4x64x512 .f32 := Memref.whole cc0_scratch0
abbrev scM0_1 : Memref sig .tc .vmem S4x1x512 .f32 := Memref.whole cc0_scratch1
abbrev VS0_0 : View sig .tc .vmem S4x64x512 .f32 := scM0_0.view
abbrev VS0_1 : View sig .tc .vmem S4x1x512 .f32 := scM0_1.view

/-- The other region's staging buffers, each whole at some contents: scoped buffers this region never touches. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's plain invariant, spelt out: the two scratch accumulators owned at some contents, the other
    region's staging buffers at some contents, the generator register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.KernelIdeal.Fr

end
-- ==== Proof.R0RunA.lean ====
/-
  The reduce kernel's body at the FIRST step of a half that is not its last: both scratch accumulators are reset to
  zero and the tile's share is added; nothing is stored to the output blocks.
-/
import proofs.«415683_j86517821214971_3_alg».proof.Proof.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at the FIRST step of a half that is not its last: both scratch accumulators are reset to The lists are the pieces the body's stores leave in each buffer it writes, last first:
    they are found by running the body, and the statement says that on whole buffers the body runs to its end. -/
noncomputable def kernelRun0_A (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) :
    Σ' (LS0 : List (View.Piece (Elt F) S4x64x512 .f32)), { LS1 : List (View.Piece (Elt F) S4x1x512 .f32) //
      ∀ (xi2 : Vec F S1x4x64x512 .f32) (xi3 : Vec F S1x4x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun xi2 xi3 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.R0RunB.lean ====
/-
  The reduce kernel's body at a step that is neither the first nor the last of its half: the tile's share is added
  to what the two scratch accumulators hold; nothing is stored to the output blocks.
-/
import proofs.«415683_j86517821214971_3_alg».proof.Proof.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at a step that is neither the first nor the last of its half: the tile's share is added The lists are the pieces the body's stores leave in each buffer it writes, last first:
    they are found by running the body, and the statement says that on whole buffers the body runs to its end. -/
noncomputable def kernelRun0_B (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) :
    Σ' (LS0 : List (View.Piece (Elt F) S4x64x512 .f32)), { LS1 : List (View.Piece (Elt F) S4x1x512 .f32) //
      ∀ (xi2 : Vec F S1x4x64x512 .f32) (xi3 : Vec F S1x4x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun xi2 xi3 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.R0RunC.lean ====
/-
  The reduce kernel's body at the LAST step of a half: the tile's share is added to what the two scratch
  accumulators hold, and the accumulators are then stored to the two output blocks.
-/
import proofs.«415683_j86517821214971_3_alg».proof.Proof.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reduce kernel's body at the LAST step of a half: the tile's share is added to what the two scratch The lists are the pieces the body's stores leave in each buffer it writes, last first:
    they are found by running the body, and the statement says that on whole buffers the body runs to its end. -/
noncomputable def kernelRun0_C (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    Σ' (L2 : List (View.Piece (Elt F) S1x4x64x512 .f32)) (L3 : List (View.Piece (Elt F) S1x4x1x512 .f32)) (LS0 : List (View.Piece (Elt F) S4x64x512 .f32)), { LS1 : List (View.Piece (Elt F) S4x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.R0.lean ====
/-
  The reduce region's half of the frame, at any contents V of the core's buffers when the region is entered.
  What the two scratch accumulators and the two output blocks hold after each of the 128 points, by recursion on
  the point: the first step of a half starts from the reset, every other step from what the step before left, and
  the last step of a half also fills the output blocks. The region's invariant carries the two accumulators at
  exactly those contents from one point to the next; with it, the proof data and the body obligation.
-/
import proofs.«415683_j86517821214971_3_alg».proof.Proof.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

/-- At the first step of a half the stores into the sums' accumulator cover it. -/
theorem scover0_A_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) (y : S4x64x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S4x64x512.size (by sl_kernel_rfl) y
/-- And those into the counts' accumulator cover it. -/
theorem scover0_A_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) (y : S4x1x512.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x1x512.size (by sl_kernel_rfl) y
/-- What the first step of a half leaves in the sums' accumulator: its stores read back. -/
def sout0_A_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) : Vec F S4x64x512 .f32 :=
  VS0_0.read (Elt F) (VS0_0.writes (Elt F) VS0_0.junk (kernelRun0_A c i arg2 harg2 arg3 harg3 arg4 harg4 arg5 harg5 arg6 harg6 arg7 harg7 hc0 hc1 x0 x1).1)
/-- What it leaves in the counts' accumulator. -/
def sout0_A_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) : Vec F S4x1x512 .f32 :=
  VS0_1.read (Elt F) (VS0_1.writes (Elt F) VS0_1.junk (kernelRun0_A c i arg2 harg2 arg3 harg3 arg4 harg4 arg5 harg5 arg6 harg6 arg7 harg7 hc0 hc1 x0 x1).2.1)
/-- At a middle step the store into the sums' accumulator covers it. -/
theorem scover0_B_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) (y : S4x64x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S4x64x512.size (by sl_kernel_rfl) y
/-- And the one into the counts' accumulator covers it. -/
theorem scover0_B_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) (y : S4x1x512.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S4x1x512.size (by sl_kernel_rfl) y
/-- What a middle step leaves in the sums' accumulator, over what the step before left. -/
def sout0_B_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) : Vec F S4x64x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
/-- What it leaves in the counts' accumulator. -/
def sout0_B_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) : Vec F S4x1x512 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
/-- At the last step of a half the store into the sums' output block covers it. -/
theorem cover0_C_2 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S1x4x64x512.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x4x64x512.size (by sl_kernel_rfl) y
/-- And the one into the counts' output block covers it. -/
theorem cover0_C_3 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S1x4x1x512.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x4x1x512.size (by sl_kernel_rfl) y
/-- The store into the sums' accumulator covers it. -/
theorem scover0_C_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S4x64x512.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S4x64x512.size (by sl_kernel_rfl) y
/-- The store into the counts' accumulator covers it. -/
theorem scover0_C_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) (y : S4x1x512.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S4x1x512.size (by sl_kernel_rfl) y
/-- What the last step of a half leaves in the sums' output block. -/
def out0_C_2 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S1x4x64x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
/-- What it leaves in the counts' output block. -/
def out0_C_3 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S1x4x1x512 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
/-- What it leaves in the sums' accumulator. -/
def sout0_C_0 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S4x64x512 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
/-- What it leaves in the counts' accumulator. -/
def sout0_C_1 (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) : Vec F S4x1x512 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- THE ACCUMULATION. After the body at position n: the sums' and the counts' output blocks (a placeholder where the
    step stores nothing into them: nothing reads it) and the sums' and the counts' accumulators. The first step of a
    half is run from the reset, every other step over what the step before left in the accumulators. -/
def outsAt0 (c : Dev nD) : (n : ℕ) → n < cfg0.N → Vec F S1x4x64x512 .f32 × Vec F S1x4x1x512 .f32 × Vec F S4x64x512 .f32 × Vec F S4x1x512 .f32
  | 0, hn => ((VO0_2.read (Elt F) VO0_2.junk), (VO0_3.read (Elt F) VO0_3.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 64 = 0 then
      if h1 : (n + 1) % 64 = 63 then
        False.elim (by omega)
      else
        ((VO0_2.read (Elt F) VO0_2.junk), (VO0_3.read (Elt F) VO0_3.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 64 = 63 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        ((VO0_2.read (Elt F) VO0_2.junk), (VO0_3.read (Elt F) VO0_3.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- At the first step of a half: the reset case's contents. -/
theorem outsAt0_A (c : Dev nD) (t : Fin cfg0.N) (h0 : t.val % 64 = 0) (h1 : ¬t.val % 64 = 63) :
    outsAt0 V c t.val t.isLt = ((VO0_2.read (Elt F) VO0_2.junk), (VO0_3.read (Elt F) VO0_3.junk), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step: that step's contents, over what the step before left. -/
theorem outsAt0_B (c : Dev nD) (t : Fin cfg0.N) (h0 : ¬t.val % 64 = 0) (h1 : ¬t.val % 64 = 63) :
    outsAt0 V c t.val t.isLt = ((VO0_2.read (Elt F) VO0_2.junk), (VO0_3.read (Elt F) VO0_3.junk), sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last step of a half: that step's contents, over what the step before left. -/
theorem outsAt0_C (c : Dev nD) (t : Fin cfg0.N) (h0 : ¬t.val % 64 = 0) (h1 : t.val % 64 = 63) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

/-- Before position n: at the first point the region's plain invariant (the accumulators at anything); afterwards
    the two accumulators at what the point before left in them, the other scoped buffers at anything, the generator
    register at some state. -/
def PhiS (c : Dev nD) : (n : ℕ) → n ≤ cfg0.N → sProp 𝕄
  | 0, _ => Pipeline.ΦA spec0 c
  | n + 1, hn => iprop((owns (c : Thread nD τ) scM0_0 fullShare ((outsAt0 V c n hn).2.2.1) ∗ owns (c : Thread nD τ) scM0_1 fullShare ((outsAt0 V c n hn).2.2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0_0 fullShare ((outsAt0 V c n hn).2.2.1) ∗ owns (c : Thread nD τ) scM0_1 fullShare ((outsAt0 V c n hn).2.2.2) ∗ restS (F := F) c) ∗ (∃ r, prngReg c r)) := rfl

theorem PhiS_pos (c : Dev nD) (n : ℕ) (h : n ≤ cfg0.N) (hz : n ≠ 0) :
    PhiS V c n h = iprop((owns (c : Thread nD τ) scM0_0 fullShare ((outsAt0 V c (n - 1) (by omega)).2.2.1) ∗ owns (c : Thread nD τ) scM0_1 fullShare ((outsAt0 V c (n - 1) (by omega)).2.2.2) ∗ restS (F := F) c) ∗ (∃ r, prngReg c r)) := by
  cases n with
  | zero => exact absurd rfl hz
  | succ n => rfl

/-! ## The proof data -/

/-- The arrays as the region finds them; after the body at point t each input's buffer at its block and the outputs'
    at the accumulation's components; the invariant carrying the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which of the three cases the
    point is in; the invariant hands the body the two accumulators at what the point before left (at anything before
    the very first point, and the reset does not read them) and takes them back at this point's contents; an output
    block the step does not store into is handed back as it was found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  by_cases h0 : t.val % 64 = 0
  · by_cases h1 : t.val % 64 = 63
    · exfalso; omega
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 64 = 63
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact HR
        iexact Hg
      isplitl [Ho]; · iexact Ho
      isplitl [H0]; · iexact H0
      isplitl [H1]; · iexact H1
      isplitl [H2]; · iexists _; iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Fr

end
-- ==== Proof.R1.lean ====
/-
  The gather region's half of the frame, at any contents V of the core's buffers when the region is entered:
  each window's block at a grid point, what the body leaves in the output block, the body's triple, the proof data
  and the body obligation. The body loads the table block and the cell numbers' block whole and stores the output
  block whole, so every point is alike and the region's invariant is the scoped rest and the generator register.
-/
import proofs.«415683_j86517821214971_3_alg».proof.Proof.Gen.KernelIdeal.Launch
import proofs.«415683_j86517821214971_3_alg».proof.Proof.Gen.KernelIdeal.Skeleton
import proofs.«415683_j86517821214971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's current staging buffer holds the table block at every point, fetched there or not, for any proof
    data whose array is V's and whose body leaves the block in place: where the window is not fetched its block
    index has not moved since the point before, so the block kept is the block of this point. The window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the cell numbers' window, which is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole table block [4,128,512], the rectangle the body loads from window 0's buffer. -/
abbrev r1_tab : Rect S4x128x512 := Rect.unit (s := S4x128x512) ![0, 0, 0] S4x128x512.size inb_S4x128x512_S4x128x512_0_0_0
/-- The whole block of cell numbers [4,1,2048], the rectangle the body loads from window 1's buffer. -/
abbrev r1_idx : Rect S4x1x2048 := Rect.unit (s := S4x1x2048) ![0, 0, 0] S4x1x2048.size inb_S4x1x2048_S4x1x2048_0_0_0
/-- The whole output block [4,64,2048], the rectangle the body's one store writes in window 2's buffer. -/
abbrev r1_out : Rect S4x64x2048 := Rect.unit (s := S4x64x2048) ![0, 0, 0] S4x64x2048.size inb_S4x64x2048_S4x64x2048_0_0_0

/-- The output buffer after the body, from the table block x0 and the cell numbers' block x1: its one store, of the
    payload at the two blocks as loaded whole, laid over the buffer. -/
def out1_2 (x0 : Vec F S4x128x512 .bf16) (x1 : Vec F S4x1x2048 .i32) : Vec F S4x64x2048 .f32 :=
  View.canon [⟨r1_out, k1_pay1 (View.ld x1 r1_idx) (View.ld x0 r1_tab)⟩]

/-- The one store's rectangle is the whole buffer, so every index of the buffer lies in it. -/
theorem cover1_2 (p0 : Vec F S4x64x2048 .f32) (y : S4x64x2048.Idx) :
    ∃ pc ∈ ([⟨r1_out, p0⟩] : List (View.Piece (Elt F) S4x64x2048 .f32)), y ∈ pc.1.set :=
  View.cover_of_tiled [⟨r1_out, p0⟩] S4x64x2048.size (by rfl) y

set_option maxHeartbeats 1000000 in
/-- The gather body on whole staging memrefs: with the table's at x0, the cell numbers' at x1 and the output's at
    anything, it runs to the continuation with the two inputs as they were and the output at out1_2 x0 x1. It loads
    the cell numbers, the table and (to no use) the output buffer, and stores the payload over the whole output. -/
theorem sound_kernel1 (c : Dev nD) (E : Set ℕ) (arg1 : Memref sig .tc .vmem S4x128x512 .bf16) (harg1 : arg1.IsWhole) (arg2 : Memref sig .tc .vmem S4x1x2048 .i32) (harg2 : arg2.IsWhole) (arg3 : Memref sig .tc .vmem S4x64x2048 .f32) (harg3 : arg3.IsWhole)
    (i : grid1.Coords) (x0 : Vec F S4x128x512 .bf16) (x1 : Vec F S4x1x2048 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the gather pipeline on core c: the arrays as the region finds them (V); after the body at
    point t each input's buffer at its block and the output's at out1_2 of the two input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents on entry to the region. -/
theorem A_eq1 (c : Dev nD) (w : Fin cfg1.W) : (dat1 V c).A w = V c (Pipeline.arrRef spec1 w) := by
  dsimp only [dat1]

/-- What the body leaves in the table's buffer: the table block. -/
theorem after1_0 (c : Dev nD) (t : Fin cfg1.N) : (dat1 V c).after 0 t = iblk1 V c 0 t := by dsimp only [dat1]
/-- What the body leaves in the cell numbers' buffer: their block. -/
theorem after1_1 (c : Dev nD) (t : Fin cfg1.N) : (dat1 V c).after 1 t = iblk1 V c 1 t := by dsimp only [dat1]
/-- What the body leaves in the output's buffer: out1_2 of the two input blocks. -/
theorem after1_2 (c : Dev nD) (t : Fin cfg1.N) : (dat1 V c).after 2 t = out1_2 (iblk1 V c 0 t) (iblk1 V c 1 t) := by dsimp only [dat1]

/-- The table's current staging buffer holds the table block at every point, fetched there or not. -/
theorem before1_0 (c : Dev nD) (t : Fin cfg1.N) (d) : (dat1 V c).before 0 t d = iblk1 V c 0 t :=
  before1_0_of V (dat1 V c) (A_eq1 V c 0) (after1_0 V c) t d
/-- The cell numbers' current staging buffer holds their block at every point. -/
theorem before1_1 (c : Dev nD) (t : Fin cfg1.N) (d) : (dat1 V c).before 1 t d = iblk1 V c 1 t :=
  before1_1_of V (dat1 V c) (A_eq1 V c 1) (after1_1 V c) t d

/-- What the body is called with at point t: the invariant, what the core owes, and each window's current staging
    buffer owned whole, at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body returns at point t: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the gather pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Run.lean ====
/-
  The whole run of the program: a reshape of the cell numbers, the reduce region, twenty host operations that turn
  the two halves' partial sums and counts into the table of means, the gather region. The core's buffer contents at
  the five boundaries between these are named one from the other, from the launch memory; each region enters from the
  boundary before it and leaves the one after it; and every weakly fair execution ends with every unscoped buffer at
  the last boundary's contents, in particular the two arguments as launched and the result at what the gather
  region's write-backs leave.
-/
import proofs.«415683_j86517821214971_3_alg».proof.Proof.R0
import proofs.«415683_j86517821214971_3_alg».proof.Proof.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the reshape (the reduce region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the twenty host operations (the gather region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what its write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution terminates, nothing faulting, with the
    result buffer at the last boundary's contents and the two arguments as launched. -/
theorem run_main : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v21 (by decide)),
       (h c _ (mem_uc main_arg0 (by decide))).trans (W4_main_arg0 m c),
       (h c _ (mem_uc main_arg1 (by decide))).trans (W4_main_arg1 m c)⟩)

end Cert.KernelIdeal.Fr

end
-- ==== Proof.R0Pieces.lean ====
/-
  What each step of the reduce kernel leaves in the buffers it writes, as the body's own arithmetic: the
  accumulators after a step are the step's update of what they held (of zero, at the first step of a half), and
  the output blocks at the last step of a half are the updated accumulators under a unit leading axis.
-/
import proofs.«415683_j86517821214971_3_alg».proof.Proof.R0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

open Idealize.ShloMosaic.Tactic
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First step of a half: the sums' accumulator is the update of zero. -/
theorem sout0_A_0_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) :
    sout0_A_0 c i arg2 harg2 arg3 harg3 arg4 harg4 arg5 harg5 arg6 harg6 arg7 harg7 hc0 hc1 x0 x1 = k0_pay6 x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4x64x512) hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- First step of a half: the counts' accumulator is the update of zero. -/
theorem sout0_A_1_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : cond0_0 i) (hc1 : ¬cond0_1 i)
    (x0 : Vec F S4x64x2048 .f32) (x1 : Vec F S4x1x2048 .i32) :
    sout0_A_1 c i arg2 harg2 arg3 harg3 arg4 harg4 arg5 harg5 arg6 harg6 arg7 harg7 hc0 hc1 x0 x1 = k0_pay7 x0 x1 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x1x512) hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Middle step: the sums' accumulator is the update of what it held. -/
theorem sout0_B_0_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) :
    sout0_B_0 c i arg2 harg2 arg3 harg3 arg4 harg4 arg5 harg5 arg6 harg6 arg7 harg7 hc0 hc1 x0 x1 xs0 xs1 = k0_pay6 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Middle step: the counts' accumulator is the update of what it held. -/
theorem sout0_B_1_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : ¬cond0_1 i)
    (x0 : Vec F S4x64x2048 .f32) (x1 : Vec F S4x1x2048 .i32) (xs0 : Vec F S4x64x512 .f32) (xs1 : Vec F S4x1x512 .f32) :
    sout0_B_1 c i arg2 harg2 arg3 harg3 arg4 harg4 arg5 harg5 arg6 harg6 arg7 harg7 hc0 hc1 x0 x1 xs0 xs1 = k0_pay7 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Last step of a half: the sums' accumulator is the update of what it held. -/
theorem sout0_C_0_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    sout0_C_0 c i arg2 harg2 arg3 harg3 arg4 harg4 arg5 harg5 arg6 harg6 arg7 harg7 hc0 hc1 x0 x1 xs0 xs1 = k0_pay6 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Last step of a half: the counts' accumulator is the update of what it held. -/
theorem sout0_C_1_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    sout0_C_1 c i arg2 harg2 arg3 harg3 arg4 harg4 arg5 harg5 arg6 harg6 arg7 harg7 hc0 hc1 x0 x1 xs0 xs1 = k0_pay7 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Last step of a half: the sums' output block is the updated accumulator under a unit leading axis. -/
theorem out0_C_2_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    out0_C_2 c i arg2 harg2 arg3 harg3 arg4 harg4 arg5 harg5 arg6 harg6 arg7 harg7 hc0 hc1 x0 x1 xs0 xs1 = k0_pay1 (k0_pay6 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz4]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]
/-- Last step of a half: the counts' output block is the updated accumulator under a unit leading axis. -/
theorem out0_C_3_eq (c : Dev nD) (i : grid0.Coords) (arg2 : Memref sig .tc .vmem S4x64x2048 .f32) (harg2 : arg2.IsWhole) (arg3 : Memref sig .tc .vmem S4x1x2048 .i32) (harg3 : arg3.IsWhole) (arg4 : Memref sig .tc .vmem S1x4x64x512 .f32) (harg4 : arg4.IsWhole) (arg5 : Memref sig .tc .vmem S1x4x1x512 .f32) (harg5 : arg5.IsWhole) (arg6 : Memref sig .tc .vmem S4x64x512 .f32) (harg6 : arg6.IsWhole) (arg7 : Memref sig .tc .vmem S4x1x512 .f32) (harg7 : arg7.IsWhole) (hc0 : ¬cond0_0 i) (hc1 : cond0_1 i)
    (x0 : Vec F S4x64x2048 .f32) (x1 : Vec F S4x1x2048 .i32) (xs0 : Vec F S4x64x512 .f32) (xs1 : Vec F S4x1x512 .f32) :
    out0_C_3 c i arg2 harg2 arg3 harg3 arg4 harg4 arg5 harg5 arg6 harg6 arg7 harg7 hc0 hc1 x0 x1 xs0 xs1 = k0_pay2 (k0_pay7 x0 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz4]
  simp only [View.readAt_eq_ld, harg2.read_unread, harg3.read_unread, harg6.read_unread, harg7.read_unread,
    View.ld_unit_zero (S := S4x64x2048) hz3, View.ld_unit_zero (S := S4x1x2048) hz3, View.ld_unit_zero (S := S4x64x512) hz3, View.ld_unit_zero (S := S4x1x512) hz3,
    View.readCov_unit_zero (S := S4x64x512) _ hz3, View.readCov_unit_zero (S := S4x1x512) _ hz3]

end Cert.KernelIdeal.Val

end
-- ==== Proof.Pay0.lean ====
/-
  What the reduce kernel's body computes, read at an index on the extended reals: the one-hot matrix product of a
  tile's features (and of a row of ones) is the tile's share of each cell sum (and of each cell count), and a step
  of the accumulation adds it to what the scratch held.
-/
import proofs.«415683_j86517821214971_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Idealize.ShloMosaic Idealize.ShloMosaic.ValueIdx Cert.KernelIdeal Cert.KernelIdeal.Gen

/-! ## The product's two operands -/

/-- The product's left operand: the tile's features over a row of ones. -/
def r0_featuresOverOnes (x0 : Vec Ideal S4x64x2048 .f32) : FVec Ideal S4x65x2048 .bf16 :=
  concatenate S4x65x2048 1
    [⟨S4x64x2048, truncf .bf16 x0 bitsLt_bf16_f32⟩,
     ⟨S4x1x2048, broadcast S4x1x2048 (Scalar.ofBits (F := Ideal) .bf16 0x3F80#16)⟩]
    concatenates_S4x64x2048_S4x1x2048_S4x65x2048_d1

/-- The product's right operand: the one-hot of each pixel's cell number. -/
def r0_oneHot (x1 : Vec Ideal S4x1x2048 .i32) : FVec Ideal S4x2048x512 .bf16 :=
  truncf .bf16 (sitofp .f32 (extui 32 (cmpi .eq
    (broadcastTo S4x2048x512
      (shapeCast S4x2048x1 (shapeCast S4x2048 (shapeCast S4x1x2048 x1 shapeCasts_S4x1x2048_S4x1x2048)
        shapeCasts_S4x1x2048_S4x2048) shapeCasts_S4x2048_S4x2048x1) broadcasts_S4x2048x1_S4x2048x512)
    (broadcastTo S4x2048x512 (iota .tc S1x1x512 32 [2] iota_S1x1x512_d2_w32) broadcasts_S1x1x512_S4x2048x512))
    natLt_1_32)) bitsLt_bf16_f32

/-- The kernel's product is the product of these two operands into the zero splat. -/
theorem k0_pay5_eq (x0 : Vec Ideal S4x64x2048 .f32) (x1 : Vec Ideal S4x1x2048 .i32) :
    k0_pay5 (F := Ideal) x0 x1
      = matmul dot_S4x65x2048_S4x2048x512_S4x65x512_2_1_1_2_0_0 none (r0_featuresOverOnes x0) (r0_oneHot x1)
          (constant (F := Ideal) S4x65x512 .f32 0x00000000#32) := rfl

/-- Rows 0 … 63 of the left operand are the features. -/
theorem r0_featuresOverOnes_feature (x0 : Vec Ideal S4x64x2048 .f32) (b : Fin 4) (c : Fin 64) (q : Fin 2048) :
    r0_featuresOverOnes x0 (ix3 b (⟨c.val, by have := c.isLt; omega⟩ : Fin 65) q) = x0 (ix3 b c q) := by
  unfold r0_featuresOverOnes
  refine (concatenate_pair_apply_left (t := S4x65x2048) (s₁ := S4x64x2048) (s₂ := S4x1x2048) 1 _ _ _ _ rfl (ix3 b c q) fun a => ?_).trans ?_
  · match a with | ⟨0, _⟩ => rfl | ⟨1, _⟩ => rfl | ⟨2, _⟩ => rfl
  · rfl

/-- Row 64 of the left operand is the row of ones. -/
theorem r0_featuresOverOnes_one (x0 : Vec Ideal S4x64x2048 .f32) (b : Fin 4) (q : Fin 2048) :
    r0_featuresOverOnes x0 (ix3 b (⟨64, by omega⟩ : Fin 65) q) = 1 := by
  unfold r0_featuresOverOnes
  refine (concatenate_pair_apply_right (t := S4x65x2048) (s₁ := S4x64x2048) (s₂ := S4x1x2048) 1 _ _ _ _ rfl rfl (ix3 b (0 : Fin 1) q) (fun a ha => ?_) ?_).trans ?_
  · match a with | ⟨0, _⟩ => rfl | ⟨1, _⟩ => exact absurd rfl ha | ⟨2, _⟩ => rfl
  · rfl
  · exact Ideal.ofBits_one_bf16

/-! ## The one-hot operand at an index -/

/-- A 32-bit word equals the word of a number below 2³² exactly when its value is that number. -/
theorem r0_eq_ofNat_iff_toNat (w : BitVec 32) (k : Nat) (hk : k < 2 ^ 32) : w = BitVec.ofNat 32 k ↔ w.toNat = k := by
  constructor
  · intro h; rw [h, BitVec.toNat_ofNat, Nat.mod_eq_of_lt hk]
  · intro h; rw [← h, BitVec.ofNat_toNat, BitVec.setWidth_eq]

/-- The compare bit, widened and converted, is one where the words agree and zero elsewhere. -/
theorem r0_sitofp_extui_cmpi_eq (x y : BitVec 32) :
    (FloatOps.sitofp (F := Ideal) .f32 ((IntOp.cmpi .eq x y).setWidth 32) : EReal) = if x = y then 1 else 0 := by
  by_cases h : x = y
  · subst h
    rw [if_pos rfl]
    have : (IntOp.cmpi .eq x x) = 1#1 := by simp [IntOp.cmpi]
    rw [this]
    show (((1#1 : BitVec 1).setWidth 32).toInt : ℝ) = (1 : EReal)
    norm_num
  · rw [if_neg h]
    have : (IntOp.cmpi .eq x y) = 0#1 := by
      have hb : (x == y) = false := beq_eq_false_iff_ne.2 h
      simp [IntOp.cmpi, hb]
    rw [this]
    show (((0#1 : BitVec 1).setWidth 32).toInt : ℝ) = (0 : EReal)
    norm_num

/-- The right operand at pixel q and cell k: one where the pixel's cell number is k, zero elsewhere. -/
theorem r0_oneHot_apply (x1 : Vec Ideal S4x1x2048 .i32) (b : Fin 4) (q : Fin 2048) (k : Fin 512) :
    r0_oneHot x1 (ix3 b q k) = if (x1 (ix3 b (0 : Fin 1) q)).toNat = k.val then 1 else 0 := by
  unfold r0_oneHot
  rw [truncf_apply, sitofp_apply, extui_apply]
  show (FloatOps.sitofp (F := Ideal) .f32 ((IntOp.cmpi .eq _ _).setWidth 32) : EReal) = _
  rw [r0_sitofp_extui_cmpi_eq]
  have hl : broadcastTo S4x2048x512
      (shapeCast S4x2048x1 (shapeCast S4x2048 (shapeCast S4x1x2048 x1 shapeCasts_S4x1x2048_S4x1x2048)
        shapeCasts_S4x1x2048_S4x2048) shapeCasts_S4x2048_S4x2048x1) broadcasts_S4x2048x1_S4x2048x512 (ix3 b q k)
      = x1 (ix3 b (0 : Fin 1) q) := by
    refine (broadcastTo_apply _ _ (ix3 b q k) (ix3 b q (0 : Fin 1)) fun a => ?_).trans ?_
    · match a with | ⟨0, _⟩ => rfl | ⟨1, _⟩ => rfl | ⟨2, _⟩ => rfl
    refine (shapeCast_apply _ _ (ix3 b q (0 : Fin 1)) (ix2 b q) ?_).trans ?_
    · rw [Shape.rowMajor_val_two, Shape.rowMajor_val_three]
      show b.val * 2048 + q.val = (b.val * 2048 + q.val) * 1 + 0
      omega
    refine (shapeCast_apply _ _ (ix2 b q) (ix3 b (0 : Fin 1) q) ?_).trans ?_
    · rw [Shape.rowMajor_val_two, Shape.rowMajor_val_three]
      show (b.val * 1 + 0) * 2048 + q.val = b.val * 2048 + q.val
      omega
    rw [shapeCast_self]
  have hr : broadcastTo S4x2048x512 (iota .tc S1x1x512 32 [2] iota_S1x1x512_d2_w32) broadcasts_S1x1x512_S4x2048x512 (ix3 b q k)
      = BitVec.ofNat 32 k.val := by
    refine (broadcastTo_apply _ _ (ix3 b q k) (ix3 (0 : Fin 1) (0 : Fin 1) k) fun a => ?_).trans ?_
    · match a with | ⟨0, _⟩ => rfl | ⟨1, _⟩ => rfl | ⟨2, _⟩ => rfl
    exact iota_single_apply .tc S1x1x512 32 2 _ _
  rw [hl, hr]
  exact if_congr (r0_eq_ofNat_iff_toNat _ _ (by have := k.isLt; omega)) rfl rfl

/-! ## The product at an index -/

/-! The product's operand indices, axis by axis: the batch coordinate and the row come from the output index, the
    pixel from the contraction index (left); the batch coordinate and the cell from the output index, the pixel from
    the contraction index (right). -/

theorem r0_lhs_axis0 (j : S4x65x512.Idx) (k : dot_S4x65x2048_S4x2048x512_S4x65x512_2_1_1_2_0_0.contr.Idx) :
    (dot_S4x65x2048_S4x2048x512_S4x65x512_2_1_1_2_0_0.lhsIdx j k 0 : ℕ) = j 0 := by
  simp [DotDims.lhsIdx, dot_S4x65x2048_S4x2048x512_S4x65x512_2_1_1_2_0_0]; rfl
theorem r0_lhs_axis1 (j : S4x65x512.Idx) (k : dot_S4x65x2048_S4x2048x512_S4x65x512_2_1_1_2_0_0.contr.Idx) :
    (dot_S4x65x2048_S4x2048x512_S4x65x512_2_1_1_2_0_0.lhsIdx j k 1 : ℕ) = j 1 := by
  simp [DotDims.lhsIdx, dot_S4x65x2048_S4x2048x512_S4x65x512_2_1_1_2_0_0]; rfl
theorem r0_lhs_axis2 (j : S4x65x512.Idx) (k : dot_S4x65x2048_S4x2048x512_S4x65x512_2_1_1_2_0_0.contr.Idx) :
    (dot_S4x65x2048_S4x2048x512_S4x65x512_2_1_1_2_0_0.lhsIdx j k 2 : ℕ) = k ⟨0, by decide⟩ := by
  simp [DotDims.lhsIdx, dot_S4x65x2048_S4x2048x512_S4x65x512_2_1_1_2_0_0]; rfl
theorem r0_rhs_axis0 (j : S4x65x512.Idx) (k : dot_S4x65x2048_S4x2048x512_S4x65x512_2_1_1_2_0_0.contr.Idx) :
    (dot_S4x65x2048_S4x2048x512_S4x65x512_2_1_1_2_0_0.rhsIdx j k 0 : ℕ) = j 0 := by
  simp [DotDims.rhsIdx, dot_S4x65x2048_S4x2048x512_S4x65x512_2_1_1_2_0_0]; rfl
theorem r0_rhs_axis1 (j : S4x65x512.Idx) (k : dot_S4x65x2048_S4x2048x512_S4x65x512_2_1_1_2_0_0.contr.Idx) :
    (dot_S4x65x2048_S4x2048x512_S4x65x512_2_1_1_2_0_0.rhsIdx j k 1 : ℕ) = k ⟨0, by decide⟩ := by
  simp [DotDims.rhsIdx, dot_S4x65x2048_S4x2048x512_S4x65x512_2_1_1_2_0_0]; rfl
theorem r0_rhs_axis2 (j : S4x65x512.Idx) (k : dot_S4x65x2048_S4x2048x512_S4x65x512_2_1_1_2_0_0.contr.Idx) :
    (dot_S4x65x2048_S4x2048x512_S4x65x512_2_1_1_2_0_0.rhsIdx j k 2 : ℕ) = j 2 := by
  simp [DotDims.rhsIdx, dot_S4x65x2048_S4x2048x512_S4x65x512_2_1_1_2_0_0]; rfl

/-- The contraction runs over the tile's 2048 pixels. -/
abbrev r0_pixels : dot_S4x65x2048_S4x2048x512_S4x65x512_2_1_1_2_0_0.contr.Idx ≃ Fin 2048 :=
  contrEquiv1 dot_S4x65x2048_S4x2048x512_S4x65x512_2_1_1_2_0_0 2048 rfl rfl

/-- The left operand index at row r and pixel q. -/
theorem r0_lhsIdx_pixel (b : Fin 4) (r : Fin 65) (k : Fin 512) (q : Fin 2048) :
    dot_S4x65x2048_S4x2048x512_S4x65x512_2_1_1_2_0_0.lhsIdx (ix3 b r k) (r0_pixels.symm q) = ix3 b r q := by
  funext a
  apply Fin.ext
  match a with
  | ⟨0, _⟩ => exact r0_lhs_axis0 _ _
  | ⟨1, _⟩ => exact r0_lhs_axis1 _ _
  | ⟨2, _⟩ => exact (r0_lhs_axis2 _ _).trans (contrEquiv1_symm_val _ _ _ _ q)

/-- The right operand index at cell k and pixel q. -/
theorem r0_rhsIdx_pixel (b : Fin 4) (r : Fin 65) (k : Fin 512) (q : Fin 2048) :
    dot_S4x65x2048_S4x2048x512_S4x65x512_2_1_1_2_0_0.rhsIdx (ix3 b r k) (r0_pixels.symm q) = ix3 b q k := by
  funext a
  apply Fin.ext
  match a with
  | ⟨0, _⟩ => exact r0_rhs_axis0 _ _
  | ⟨1, _⟩ => exact (r0_rhs_axis1 _ _).trans (contrEquiv1_symm_val _ _ _ _ q)
  | ⟨2, _⟩ => exact r0_rhs_axis2 _ _

/-- The product at row r and cell k: the left operand's row r summed over the pixels numbered k. -/
theorem k0_pay5_apply (x0 : Vec Ideal S4x64x2048 .f32) (x1 : Vec Ideal S4x1x2048 .i32) (b : Fin 4) (r : Fin 65) (k : Fin 512) :
    k0_pay5 (F := Ideal) x0 x1 (ix3 b r k)
      = ∑ q : Fin 2048, if (x1 (ix3 b (0 : Fin 1) q)).toNat = k.val then r0_featuresOverOnes x0 (ix3 b r q) else 0 := by
  rw [k0_pay5_eq]
  simp only [matmul]
  rw [Ideal.matmul_constant_zero_apply, ← Equiv.sum_comp r0_pixels.symm]
  refine Finset.sum_congr rfl fun q _ => ?_
  rw [r0_lhsIdx_pixel, r0_rhsIdx_pixel, r0_oneHot_apply]
  split
  · exact mul_one _
  · exact mul_zero _

/-! ## The statements -/

/-- Rows 0 … 63 of the product: channel c's features of the tile's pixels numbered k, summed. -/
theorem pay5_sum (x0 : Vec Ideal S4x64x2048 .f32) (x1 : Vec Ideal S4x1x2048 .i32) (b : Fin 4) (c : Fin 64) (k : Fin 512) :
    k0_pay5 (F := Ideal) x0 x1 (ix3 b (⟨c.val, by have := c.isLt; omega⟩ : Fin 65) k)
      = ∑ q : Fin 2048, if (x1 (ix3 b (0 : Fin 1) q)).toNat = k.val then x0 (ix3 b c q) else 0 := by
  rw [k0_pay5_apply]
  simp only [r0_featuresOverOnes_feature]

/-- Row 64 of the product, the row of ones: the number of the tile's pixels numbered k. -/
theorem pay5_cnt (x0 : Vec Ideal S4x64x2048 .f32) (x1 : Vec Ideal S4x1x2048 .i32) (b : Fin 4) (k : Fin 512) :
    k0_pay5 (F := Ideal) x0 x1 (ix3 b (⟨64, by omega⟩ : Fin 65) k)
      = ∑ q : Fin 2048, if (x1 (ix3 b (0 : Fin 1) q)).toNat = k.val then (1 : EReal) else 0 := by
  rw [k0_pay5_apply]
  simp only [r0_featuresOverOnes_one]

/-- The sums' scratch after a step: what it held plus the tile's share. -/
theorem pay6_at (x0 : Vec Ideal S4x64x2048 .f32) (x1 : Vec Ideal S4x1x2048 .i32) (s : Vec Ideal S4x64x512 .f32)
    (b : Fin 4) (c : Fin 64) (k : Fin 512) :
    k0_pay6 (F := Ideal) x0 x1 s (ix3 b c k)
      = s (ix3 b c k) + ∑ q : Fin 2048, if (x1 (ix3 b (0 : Fin 1) q)).toNat = k.val then x0 (ix3 b c q) else 0 := by
  have hslice : extractStridedSlice S4x64x512 ![0, 0, 0] (k0_pay5 (F := Ideal) x0 x1) slices_S4x65x512_o0_0_0_S4x64x512 (ix3 b c k)
      = k0_pay5 (F := Ideal) x0 x1 (ix3 b (⟨c.val, by have := c.isLt; omega⟩ : Fin 65) k) :=
    extractStridedSlice_apply _ _ _ _ _ fun a => by
      match a with
      | ⟨0, _⟩ => exact (Nat.zero_add _).symm
      | ⟨1, _⟩ => exact (Nat.zero_add _).symm
      | ⟨2, _⟩ => exact (Nat.zero_add _).symm
  unfold k0_pay6
  rw [shapeCast_self, addf_apply, hslice, pay5_sum]

/-- The counts' scratch after a step: what it held plus the tile's count. -/
theorem pay7_at (x0 : Vec Ideal S4x64x2048 .f32) (x1 : Vec Ideal S4x1x2048 .i32) (s : Vec Ideal S4x1x512 .f32)
    (b : Fin 4) (k : Fin 512) :
    k0_pay7 (F := Ideal) x0 x1 s (ix3 b (0 : Fin 1) k)
      = s (ix3 b (0 : Fin 1) k) + ∑ q : Fin 2048, if (x1 (ix3 b (0 : Fin 1) q)).toNat = k.val then (1 : EReal) else 0 := by
  have hslice : extractStridedSlice S4x1x512 ![0, 64, 0] (k0_pay5 (F := Ideal) x0 x1) slices_S4x65x512_o0_64_0_S4x1x512 (ix3 b (0 : Fin 1) k)
      = k0_pay5 (F := Ideal) x0 x1 (ix3 b (⟨64, by omega⟩ : Fin 65) k) :=
    extractStridedSlice_apply _ _ _ _ _ fun a => by
      match a with
      | ⟨0, _⟩ => exact (Nat.zero_add _).symm
      | ⟨1, _⟩ => rfl
      | ⟨2, _⟩ => exact (Nat.zero_add _).symm
  unfold k0_pay7
  rw [shapeCast_self, addf_apply, hslice, pay5_cnt]

/-- The reset values are zero. -/
theorem pay3_at (j : S4x64x512.Idx) : k0_pay3 (F := Ideal) j = 0 := by
  unfold k0_pay3
  rw [shapeCast_self]
  exact Ideal.ofBits_zero_f32
theorem pay4_at (j : S4x1x512.Idx) : k0_pay4 (F := Ideal) j = 0 := by
  unfold k0_pay4
  rw [shapeCast_self]
  exact Ideal.ofBits_zero_f32

/-- The stores into the output blocks are the scratch contents under a unit leading axis. -/
theorem pay1_at (v : Vec Ideal S4x64x512 .f32) (b : Fin 4) (c : Fin 64) (k : Fin 512) :
    k0_pay1 (F := Ideal) v (ix4 (0 : Fin 1) b c k) = v (ix3 b c k) := by
  unfold k0_pay1
  refine (shapeCast_addUnit_apply _ v _ _).trans ?_
  congr 1
  funext a; match a with | ⟨0, _⟩ => rfl | ⟨1, _⟩ => rfl | ⟨2, _⟩ => rfl
theorem pay2_at (v : Vec Ideal S4x1x512 .f32) (b : Fin 4) (k : Fin 512) :
    k0_pay2 (F := Ideal) v (ix4 (0 : Fin 1) b (0 : Fin 1) k) = v (ix3 b (0 : Fin 1) k) := by
  unfold k0_pay2
  refine (shapeCast_addUnit_apply _ v _ _).trans ?_
  congr 1
  funext a; match a with | ⟨0, _⟩ => rfl | ⟨1, _⟩ => rfl | ⟨2, _⟩ => rfl

end Cert.KernelIdeal.Pay

end
-- ==== Proof.R0Value.lean ====
/-
  The reduce region's two output arrays after the run, as functions of the features and the cell numbers the region
  was entered with. Point t of the grid reads pixels t * 2048 … t * 2048 + 2047 of every image; the step adds, for
  every cell k, the tile's features (and the tile's count) of the pixels numbered k to the accumulators; a half's
  accumulators start from zero at its first step; the last step of half p stores them as row p of the outputs. So
  row p of the sums' output is the sum over the half's 64 tiles of the tiles' shares, and likewise for the counts.
-/
import proofs.«415683_j86517821214971_3_alg».proof.Proof.R0Pieces
import proofs.«415683_j86517821214971_3_alg».proof.Proof.Pay0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

open Cert.KernelIdeal.Pay

variable (V : (c : Dev nD) → (b : Ref sig .tc) → Buf (Elt Ideal) ((c : Thread nD τ).loc b))

/-! ## Where a point's blocks lie -/

/-- The printed index maps, decided over the grid: both input windows' blocks at point t are block t of the pixel
    axis; output row p is written from the points of half p. -/
theorem idx_facts0 : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 4) = t.val / 64 ∧ win0_2.index t (1 : Fin 4) = 0 ∧ win0_2.index t (2 : Fin 4) = 0 ∧ win0_2.index t (3 : Fin 4) = 0
    ∧ win0_3.index t (0 : Fin 4) = t.val / 64 ∧ win0_3.index t (1 : Fin 4) = 0 ∧ win0_3.index t (2 : Fin 4) = 0 ∧ win0_3.index t (3 : Fin 4) = 0 :=
  (by decide +kernel : ∀ t : Fin grid0.N, _)

/-- Pixel q of tile t, for any tile number (taken modulo the image so that it is total). -/
def pixN (t : ℕ) (q : Fin 2048) : Fin 262144 := ⟨(t * 2048 + q.val) % 262144, Nat.mod_lt _ (by omega)⟩

/-- The features' block at point t is tile t of the features. -/
theorem feat_blk (c : Dev nD) (t : Fin cfg0.N) (b : Fin 4) (ch : Fin 64) (q : Fin 2048) :
    (iblk0 V c 0 t : S4x64x2048.Idx → EReal) (ix3 b ch q) = (V c main_arg0 : S4x64x262144.Idx → EReal) (ix3 b ch (pixN t.val q)) := by
  obtain ⟨-, -, e2, -⟩ := idx_facts0 t
  have hN : t.val < 128 := lt_of_lt_of_eq t.isLt (show cfg0.N = 128 from N_0)
  show (V c main_arg0 : S4x64x262144.Idx → EReal) (((cfg0.win 0).blk t).view.emb (ix3 b ch q)) = _
  refine congrArg _ (funext fun a => Fin.ext ?_)
  match a with
  | ⟨0, _⟩ => show win0_0.index t (0 : Fin 3) * 4 + 1 * b.val = b.val; have := (idx_facts0 t).1; omega
  | ⟨1, _⟩ => show win0_0.index t (1 : Fin 3) * 64 + 1 * ch.val = ch.val; have := (idx_facts0 t).2.1; omega
  | ⟨2, _⟩ => show win0_0.index t (2 : Fin 3) * 2048 + 1 * q.val = (t.val * 2048 + q.val) % 262144; have := q.isLt; omega

/-- The cell numbers' block at point t is tile t of the cell numbers. -/
theorem idx_blk (c : Dev nD) (t : Fin cfg0.N) (b : Fin 4) (q : Fin 2048) :
    (iblk0 V c 1 t : S4x1x2048.Idx → BitVec 32) (ix3 b (0 : Fin 1) q) = (V c main_v0 : S4x1x262144.Idx → BitVec 32) (ix3 b (0 : Fin 1) (pixN t.val q)) := by
  have hN : t.val < 128 := lt_of_lt_of_eq t.isLt (show cfg0.N = 128 from N_0)
  show (V c main_v0 : S4x1x262144.Idx → BitVec 32) (((cfg0.win 1).blk t).view.emb (ix3 b (0 : Fin 1) q)) = _
  refine congrArg _ (funext fun a => Fin.ext ?_)
  match a with
  | ⟨0, _⟩ => show win0_1.index t (0 : Fin 3) * 4 + 1 * b.val = b.val; have := (idx_facts0 t).2.2.2.1; omega
  | ⟨1, _⟩ => show win0_1.index t (1 : Fin 3) * 1 + 1 * 0 = 0; have := (idx_facts0 t).2.2.2.2.1; omega
  | ⟨2, _⟩ => show win0_1.index t (2 : Fin 3) * 2048 + 1 * q.val = (t.val * 2048 + q.val) % 262144; have := (idx_facts0 t).2.2.2.2.2.1; have := q.isLt; omega

/-! ## A tile's share, and one step of the accumulation -/

/-- Tile t's share of the sum of channel ch over cell k of image b. -/
def tS (c : Dev nD) (b : Fin 4) (ch : Fin 64) (k : Fin 512) (t : ℕ) : EReal :=
  ∑ q : Fin 2048, if ((V c main_v0 : S4x1x262144.Idx → BitVec 32) (ix3 b (0 : Fin 1) (pixN t q))).toNat = k.val
    then (V c main_arg0 : S4x64x262144.Idx → EReal) (ix3 b ch (pixN t q)) else 0

/-- Tile t's share of the count of cell k of image b. -/
def tC (c : Dev nD) (b : Fin 4) (k : Fin 512) (t : ℕ) : EReal :=
  ∑ q : Fin 2048, if ((V c main_v0 : S4x1x262144.Idx → BitVec 32) (ix3 b (0 : Fin 1) (pixN t q))).toNat = k.val
    then (1 : EReal) else 0

/-- One step on the sums: what the accumulator held plus the point's tile's share. -/
theorem step_sum (c : Dev nD) (t : Fin cfg0.N) (s : Vec Ideal S4x64x512 .f32) (b : Fin 4) (ch : Fin 64) (k : Fin 512) :
    k0_pay6 (F := Ideal) (iblk0 V c 0 t) (iblk0 V c 1 t) s (ix3 b ch k) = s (ix3 b ch k) + tS V c b ch k t.val := by
  refine (pay6_at (iblk0 V c 0 t) (iblk0 V c 1 t) s b ch k).trans ?_
  unfold tS
  refine congrArg _ (Finset.sum_congr rfl fun q _ => ?_)
  rw [idx_blk V c t b q, feat_blk V c t b ch q]

/-- One step on the counts. -/
theorem step_cnt (c : Dev nD) (t : Fin cfg0.N) (s : Vec Ideal S4x1x512 .f32) (b : Fin 4) (k : Fin 512) :
    k0_pay7 (F := Ideal) (iblk0 V c 0 t) (iblk0 V c 1 t) s (ix3 b (0 : Fin 1) k) = s (ix3 b (0 : Fin 1) k) + tC V c b k t.val := by
  refine (pay7_at (iblk0 V c 0 t) (iblk0 V c 1 t) s b k).trans ?_
  unfold tC
  refine congrArg _ (Finset.sum_congr rfl fun q _ => ?_)
  rw [idx_blk V c t b q]

/-! ## The accumulators after each point -/

/-- After point t the sums' accumulator holds the shares of the tiles of t's half up to t, added. -/
theorem acc_sum (c : Dev nD) (b : Fin 4) (ch : Fin 64) (k : Fin 512) : ∀ (n : ℕ) (t : Fin cfg0.N), t.val = n →
    ((outsAt0 V c t.val t.isLt).2.2.1 : S4x64x512.Idx → EReal) (ix3 b ch k)
      = ∑ j ∈ Finset.range (t.val % 64 + 1), tS V c b ch k (t.val / 64 * 64 + j) := by
  intro n
  induction n with
  | zero =>
    intro t ht
    have h0 : t.val % 64 = 0 := by rw [ht]
    have h1 : ¬t.val % 64 = 63 := by rw [ht]; decide
    rw [outsAt0_A V c t h0 h1]
    dsimp only
    rw [sout0_A_0_eq]
    refine (step_sum V c t _ b ch k).trans ?_
    rw [pay3_at, h0, ht, Finset.sum_range_one, zero_add]
  | succ n ih =>
    intro t ht
    have hN : t.val < 128 := lt_of_lt_of_eq t.isLt (show cfg0.N = 128 from N_0)
    by_cases h0 : t.val % 64 = 0
    · have h1 : ¬t.val % 64 = 63 := by omega
      rw [outsAt0_A V c t h0 h1]
      dsimp only
      rw [sout0_A_0_eq]
      refine (step_sum V c t _ b ch k).trans ?_
      rw [pay3_at, h0, Finset.sum_range_one, zero_add]
      congr 1
      omega
    · have hprev := ih ⟨t.val - 1, by omega⟩ (by show t.val - 1 = n; omega)
      have e1 : (t.val - 1) % 64 + 1 = t.val % 64 := by omega
      have e2 : (t.val - 1) / 64 = t.val / 64 := by omega
      have e3 : t.val / 64 * 64 + t.val % 64 = t.val := by omega
      by_cases h1 : t.val % 64 = 63
      · rw [outsAt0_C V c t h0 h1]
        dsimp only
        rw [sout0_C_0_eq]
        refine (step_sum V c t _ b ch k).trans ?_
        rw [Finset.sum_range_succ, e3]
        refine congrArg (· + tS V c b ch k t.val) ?_
        refine hprev.trans ?_
        show ∑ j ∈ Finset.range ((t.val - 1) % 64 + 1), tS V c b ch k ((t.val - 1) / 64 * 64 + j) = _
        rw [e1, e2]
      · rw [outsAt0_B V c t h0 h1]
        dsimp only
        rw [sout0_B_0_eq]
        refine (step_sum V c t _ b ch k).trans ?_
        rw [Finset.sum_range_succ, e3]
        refine congrArg (· + tS V c b ch k t.val) ?_
        refine hprev.trans ?_
        show ∑ j ∈ Finset.range ((t.val - 1) % 64 + 1), tS V c b ch k ((t.val - 1) / 64 * 64 + j) = _
        rw [e1, e2]

/-- After point t the counts' accumulator holds the counts of the tiles of t's half up to t, added. -/
theorem acc_cnt (c : Dev nD) (b : Fin 4) (k : Fin 512) : ∀ (n : ℕ) (t : Fin cfg0.N), t.val = n →
    ((outsAt0 V c t.val t.isLt).2.2.2 : S4x1x512.Idx → EReal) (ix3 b (0 : Fin 1) k)
      = ∑ j ∈ Finset.range (t.val % 64 + 1), tC V c b k (t.val / 64 * 64 + j) := by
  intro n
  induction n with
  | zero =>
    intro t ht
    have h0 : t.val % 64 = 0 := by rw [ht]
    have h1 : ¬t.val % 64 = 63 := by rw [ht]; decide
    rw [outsAt0_A V c t h0 h1]
    dsimp only
    rw [sout0_A_1_eq]
    refine (step_cnt V c t _ b k).trans ?_
    rw [pay4_at, h0, ht, Finset.sum_range_one, zero_add]
  | succ n ih =>
    intro t ht
    have hN : t.val < 128 := lt_of_lt_of_eq t.isLt (show cfg0.N = 128 from N_0)
    by_cases h0 : t.val % 64 = 0
    · have h1 : ¬t.val % 64 = 63 := by omega
      rw [outsAt0_A V c t h0 h1]
      dsimp only
      rw [sout0_A_1_eq]
      refine (step_cnt V c t _ b k).trans ?_
      rw [pay4_at, h0, Finset.sum_range_one, zero_add]
      congr 1
      omega
    · have hprev := ih ⟨t.val - 1, by omega⟩ (by show t.val - 1 = n; omega)
      have e1 : (t.val - 1) % 64 + 1 = t.val % 64 := by omega
      have e2 : (t.val - 1) / 64 = t.val / 64 := by omega
      have e3 : t.val / 64 * 64 + t.val % 64 = t.val := by omega
      by_cases h1 : t.val % 64 = 63
      · rw [outsAt0_C V c t h0 h1]
        dsimp only
        rw [sout0_C_1_eq]
        refine (step_cnt V c t _ b k).trans ?_
        rw [Finset.sum_range_succ, e3]
        refine congrArg (· + tC V c b k t.val) ?_
        refine hprev.trans ?_
        show ∑ j ∈ Finset.range ((t.val - 1) % 64 + 1), tC V c b k ((t.val - 1) / 64 * 64 + j) = _
        rw [e1, e2]
      · rw [outsAt0_B V c t h0 h1]
        dsimp only
        rw [sout0_B_1_eq]
        refine (step_cnt V c t _ b k).trans ?_
        rw [Finset.sum_range_succ, e3]
        refine congrArg (· + tC V c b k t.val) ?_
        refine hprev.trans ?_
        show ∑ j ∈ Finset.range ((t.val - 1) % 64 + 1), tC V c b k ((t.val - 1) / 64 * 64 + j) = _
        rw [e1, e2]

/-! ## The two output arrays -/

/-- Row p of the sums' output: the shares of half p's 64 tiles, added. -/
def sumsOut (c : Dev nD) : S2x4x64x512.Idx → EReal := fun j =>
  ∑ i ∈ Finset.range 64, tS V c (j 1) (j 2) (j 3) ((j 0).val * 64 + i)

/-- What the last step of a half writes back is its row of that function. -/
theorem flushed0_2_eq (c : Dev nD) (t : Fin cfg0.N) (hf : (cfg0.win 2).flush t = true) :
    (dat0 V c).flushed 2 t = ((cfg0.win 2).blk t).view.read (Elt Ideal) (sumsOut V c) := by
  have hN : t.val < 128 := lt_of_lt_of_eq t.isLt (show cfg0.N = 128 from N_0)
  have h1 : t.val % 64 = 63 := (flush0_2 t).mp hf
  have h0 : ¬t.val % 64 = 0 := by omega
  show (cfg0.win 2).cut (grid0.coords t) ((dat0 V c).after 2 t) = _
  rw [after0_2, outsAt0_C V c t h0 h1]
  dsimp only
  rw [out0_C_2_eq]
  funext y
  obtain ⟨p0, b, ch, k, rfl⟩ : ∃ (p0 : Fin 1) (b : Fin 4) (ch : Fin 64) (k : Fin 512), y = ix4 p0 b ch k := ⟨y 0, y 1, y 2, y 3, eq_ix4 y⟩
  obtain rfl : p0 = 0 := Subsingleton.elim _ _
  have he : ((cfg0.win 2).blk t).view.emb (ix4 (0 : Fin 1) b ch k) = (ix4 (⟨t.val / 64, by omega⟩ : Fin 2) b ch k : S2x4x64x512.Idx) := by
    funext a; apply Fin.ext
    obtain ⟨-, -, -, -, -, -, e20, e21, e22, e23, e30, e31, e32, e33⟩ := idx_facts0 t
    match a with
    | ⟨0, _⟩ => show win0_2.index t (0 : Fin 4) * 1 + 1 * 0 = t.val / 64; omega
    | ⟨1, _⟩ => show win0_2.index t (1 : Fin 4) * 4 + 1 * b.val = b.val; omega
    | ⟨2, _⟩ => show win0_2.index t (2 : Fin 4) * 64 + 1 * ch.val = ch.val; omega
    | ⟨3, _⟩ => show win0_2.index t (3 : Fin 4) * 512 + 1 * k.val = k.val; omega
  show k0_pay1 (F := Ideal) (k0_pay6 (iblk0 V c 0 t) (iblk0 V c 1 t) _) (ix4 (0 : Fin 1) b ch k) = sumsOut V c (((cfg0.win 2).blk t).view.emb (ix4 (0 : Fin 1) b ch k))
  rw [he]
  refine (pay1_at _ b ch k).trans ?_
  refine (step_sum V c t _ b ch k).trans ?_
  have hprev := acc_sum V c b ch k (t.val - 1) ⟨t.val - 1, by omega⟩ rfl
  have e1 : (t.val - 1) % 64 + 1 = 63 := by omega
  have e2 : (t.val - 1) / 64 = t.val / 64 := by omega
  have e3 : t.val / 64 * 64 + 63 = t.val := by omega
  refine (congrArg (· + tS V c b ch k t.val) hprev).trans ?_
  show (∑ j ∈ Finset.range ((t.val - 1) % 64 + 1), tS V c b ch k ((t.val - 1) / 64 * 64 + j)) + tS V c b ch k t.val
    = ∑ i ∈ Finset.range 64, tS V c b ch k (t.val / 64 * 64 + i)
  rw [e1, e2, Finset.sum_range_succ _ 63, e3]

/-- An index of the array is in point t's block iff each coordinate is in the block's range on its axis. -/
theorem mem_blk0_2 (t : Fin cfg0.N) (i : S2x4x64x512.Idx) :
    i ∈ ((cfg0.win 2).blk t).view.set ↔ ∀ a : Fin 4, win0_2.index t a * S1x4x64x512.size a ≤ (i a).val ∧ (i a).val < win0_2.index t a * S1x4x64x512.size a + S1x4x64x512.size a := by
  show i ∈ ((View.whole main_v1_0).slice (win0_2.rect t)).set ↔ _
  rw [View.set_slice_whole, Rect.mem_set_unit]
  exact Iff.rfl

/-- Row p of the array is written back by the last step of half p. -/
theorem cover0_2 (i : S2x4x64x512.Idx) : ∃ t : Fin cfg0.N, (cfg0.win 2).flush t = true ∧ i ∈ ((cfg0.win 2).blk t).view.set := by
  have hp : (i 0).val < 2 := (i 0).isLt
  have hb : (i 1).val < 4 := (i 1).isLt
  have hc : (i 2).val < 64 := (i 2).isLt
  have hk : (i 3).val < 512 := (i 3).isLt
  have hN : cfg0.N = 128 := N_0
  refine ⟨⟨(i 0).val * 64 + 63, by omega⟩, (flush0_2 _).mpr (by show ((i 0).val * 64 + 63) % 64 = 63; omega), ?_⟩
  rw [mem_blk0_2]
  obtain ⟨-, -, -, -, -, -, e20, e21, e22, e23, e30, e31, e32, e33⟩ := idx_facts0 ⟨(i 0).val * 64 + 63, by omega⟩
  have ed : ((i 0).val * 64 + 63) / 64 = (i 0).val := by omega
  intro a
  match a with
  | ⟨0, _⟩ => show win0_2.index _ (0 : Fin 4) * 1 ≤ (i 0).val ∧ (i 0).val < win0_2.index _ (0 : Fin 4) * 1 + 1; simp only [Fin.val_mk] at e20 e30; omega
  | ⟨1, _⟩ => show win0_2.index _ (1 : Fin 4) * 4 ≤ (i 1).val ∧ (i 1).val < win0_2.index _ (1 : Fin 4) * 4 + 4; omega
  | ⟨2, _⟩ => show win0_2.index _ (2 : Fin 4) * 64 ≤ (i 2).val ∧ (i 2).val < win0_2.index _ (2 : Fin 4) * 64 + 64; omega
  | ⟨3, _⟩ => show win0_2.index _ (3 : Fin 4) * 512 ≤ (i 3).val ∧ (i 3).val < win0_2.index _ (3 : Fin 4) * 512 + 512; omega

/-- THE ARRAY after the region. -/
theorem final0_2 (c : Dev nD) : ((dat0 V c).arrAt 2 cfg0.N : S2x4x64x512.Idx → EReal) = sumsOut V c :=
  (dat0 V c).arrAt_eq_of_cover 2 (sumsOut V c) (fun t hf => flushed0_2_eq V c t hf) cover0_2

/-- Row p of the counts' output: the counts of half p's 64 tiles, added. -/
def cntsOut (c : Dev nD) : S2x4x1x512.Idx → EReal := fun j =>
  ∑ i ∈ Finset.range 64, tC V c (j 1) (j 3) ((j 0).val * 64 + i)

/-- What the last step of a half writes back is its row of that function. -/
theorem flushed0_3_eq (c : Dev nD) (t : Fin cfg0.N) (hf : (cfg0.win 3).flush t = true) :
    (dat0 V c).flushed 3 t = ((cfg0.win 3).blk t).view.read (Elt Ideal) (cntsOut V c) := by
  have hN : t.val < 128 := lt_of_lt_of_eq t.isLt (show cfg0.N = 128 from N_0)
  have h1 : t.val % 64 = 63 := (flush0_3 t).mp hf
  have h0 : ¬t.val % 64 = 0 := by omega
  show (cfg0.win 3).cut (grid0.coords t) ((dat0 V c).after 3 t) = _
  rw [after0_3, outsAt0_C V c t h0 h1]
  dsimp only
  rw [out0_C_3_eq]
  funext y
  obtain ⟨p0, b, u, k, rfl⟩ : ∃ (p0 : Fin 1) (b : Fin 4) (u : Fin 1) (k : Fin 512), y = ix4 p0 b u k := ⟨y 0, y 1, y 2, y 3, eq_ix4 y⟩
  obtain rfl : p0 = 0 := Subsingleton.elim _ _
  obtain rfl : u = 0 := Subsingleton.elim _ _
  have he : ((cfg0.win 3).blk t).view.emb (ix4 (0 : Fin 1) b (0 : Fin 1) k) = (ix4 (⟨t.val / 64, by omega⟩ : Fin 2) b (0 : Fin 1) k : S2x4x1x512.Idx) := by
    funext a; apply Fin.ext
    obtain ⟨-, -, -, -, -, -, e20, e21, e22, e23, e30, e31, e32, e33⟩ := idx_facts0 t
    match a with
    | ⟨0, _⟩ => show win0_3.index t (0 : Fin 4) * 1 + 1 * 0 = t.val / 64; omega
    | ⟨1, _⟩ => show win0_3.index t (1 : Fin 4) * 4 + 1 * b.val = b.val; omega
    | ⟨2, _⟩ => show win0_3.index t (2 : Fin 4) * 1 + 1 * 0 = 0; omega
    | ⟨3, _⟩ => show win0_3.index t (3 : Fin 4) * 512 + 1 * k.val = k.val; omega
  show k0_pay2 (F := Ideal) (k0_pay7 (iblk0 V c 0 t) (iblk0 V c 1 t) _) (ix4 (0 : Fin 1) b (0 : Fin 1) k) = cntsOut V c (((cfg0.win 3).blk t).view.emb (ix4 (0 : Fin 1) b (0 : Fin 1) k))
  rw [he]
  refine (pay2_at _ b k).trans ?_
  refine (step_cnt V c t _ b k).trans ?_
  have hprev := acc_cnt V c b k (t.val - 1) ⟨t.val - 1, by omega⟩ rfl
  have e1 : (t.val - 1) % 64 + 1 = 63 := by omega
  have e2 : (t.val - 1) / 64 = t.val / 64 := by omega
  have e3 : t.val / 64 * 64 + 63 = t.val := by omega
  refine (congrArg (· + tC V c b k t.val) hprev).trans ?_
  show (∑ j ∈ Finset.range ((t.val - 1) % 64 + 1), tC V c b k ((t.val - 1) / 64 * 64 + j)) + tC V c b k t.val
    = ∑ i ∈ Finset.range 64, tC V c b k (t.val / 64 * 64 + i)
  rw [e1, e2, Finset.sum_range_succ _ 63, e3]

/-- An index of the array is in point t's block iff each coordinate is in the block's range on its axis. -/
theorem mem_blk0_3 (t : Fin cfg0.N) (i : S2x4x1x512.Idx) :
    i ∈ ((cfg0.win 3).blk t).view.set ↔ ∀ a : Fin 4, win0_3.index t a * S1x4x1x512.size a ≤ (i a).val ∧ (i a).val < win0_3.index t a * S1x4x1x512.size a + S1x4x1x512.size a := by
  show i ∈ ((View.whole main_v1_1).slice (win0_3.rect t)).set ↔ _
  rw [View.set_slice_whole, Rect.mem_set_unit]
  exact Iff.rfl

/-- Row p of the array is written back by the last step of half p. -/
theorem cover0_3 (i : S2x4x1x512.Idx) : ∃ t : Fin cfg0.N, (cfg0.win 3).flush t = true ∧ i ∈ ((cfg0.win 3).blk t).view.set := by
  have hp : (i 0).val < 2 := (i 0).isLt
  have hb : (i 1).val < 4 := (i 1).isLt
  have hc : (i 2).val < 1 := (i 2).isLt
  have hk : (i 3).val < 512 := (i 3).isLt
  have hN : cfg0.N = 128 := N_0
  refine ⟨⟨(i 0).val * 64 + 63, by omega⟩, (flush0_3 _).mpr (by show ((i 0).val * 64 + 63) % 64 = 63; omega), ?_⟩
  rw [mem_blk0_3]
  obtain ⟨-, -, -, -, -, -, e20, e21, e22, e23, e30, e31, e32, e33⟩ := idx_facts0 ⟨(i 0).val * 64 + 63, by omega⟩
  have ed : ((i 0).val * 64 + 63) / 64 = (i 0).val := by omega
  intro a
  match a with
  | ⟨0, _⟩ => show win0_3.index _ (0 : Fin 4) * 1 ≤ (i 0).val ∧ (i 0).val < win0_3.index _ (0 : Fin 4) * 1 + 1; simp only [Fin.val_mk] at e20 e30; omega
  | ⟨1, _⟩ => show win0_3.index _ (1 : Fin 4) * 4 ≤ (i 1).val ∧ (i 1).val < win0_3.index _ (1 : Fin 4) * 4 + 4; omega
  | ⟨2, _⟩ => show win0_3.index _ (2 : Fin 4) * 1 ≤ (i 2).val ∧ (i 2).val < win0_3.index _ (2 : Fin 4) * 1 + 1; omega
  | ⟨3, _⟩ => show win0_3.index _ (3 : Fin 4) * 512 ≤ (i 3).val ∧ (i 3).val < win0_3.index _ (3 : Fin 4) * 512 + 512; omega

/-- THE ARRAY after the region. -/
theorem final0_3 (c : Dev nD) : ((dat0 V c).arrAt 3 cfg0.N : S2x4x1x512.Idx → EReal) = cntsOut V c :=
  (dat0 V c).arrAt_eq_of_cover 3 (cntsOut V c) (fun t hf => flushed0_3_eq V c t hf) cover0_3

end Cert.KernelIdeal.Val

end
-- ==== Proof.Pay1.lean ====
/-
  What the gather kernel's body computes, read at an index on the extended reals: the product of the table with a
  pixel's one-hot row is the table's column at the pixel's cell number, and the result adds the two halves of the
  table's rows.

  The steps. The right operand of the product, at (image b, pixel q, lane k), is the number 1 when pixel q's cell
  number is k and 0 otherwise: the cell numbers are carried from [4, 1, 2048] to [4, 2048, 1] without moving and
  repeated along the lanes, the lane numbers 0 … 511 are repeated along images and pixels, the two are compared, and
  the compare bit is read as a number (on the extended reals a change of float format does nothing). The product
  contracts the lanes and keeps the image axis as a batch axis, so its entry (b, row, q) is the sum over k of
  table[b, row, k] times that 1 or 0. Since x · 1 = x and x · 0 = 0 for EVERY extended real, infinite ones included,
  the sum is its one term at k = the cell number — which is a lane because the number is below 512. The two slices
  read rows c and 64 + c.
-/
import proofs.«415683_j86517821214971_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The product's operand indices, axis by axis

The left operand [4, 128, 512] and the right operand [4, 2048, 512] share the batch axis 0 and are contracted on
their axes 2; the result [4, 128, 2048] lists the batch axis, the left free axis, the right free axis. -/

/-- The left operand's image coordinate is the result's. -/
theorem g1_lhs_axis0 (i : S4x128x2048.Idx) (q : dot_S4x128x512_S4x2048x512_S4x128x2048_2_2_1_1_0_0.contr.Idx) :
    (dot_S4x128x512_S4x2048x512_S4x128x2048_2_2_1_1_0_0.lhsIdx i q 0).val = (i 0).val := by
  unfold DotDims.lhsIdx
  rw [dif_pos (show (0 : Fin S4x128x512.rank) ∈ dot_S4x128x512_S4x2048x512_S4x128x2048_2_2_1_1_0_0.lhsBatch by decide)]
  rfl

/-- The left operand's row coordinate is the result's. -/
theorem g1_lhs_axis1 (i : S4x128x2048.Idx) (q : dot_S4x128x512_S4x2048x512_S4x128x2048_2_2_1_1_0_0.contr.Idx) :
    (dot_S4x128x512_S4x2048x512_S4x128x2048_2_2_1_1_0_0.lhsIdx i q 1).val = (i 1).val := by
  unfold DotDims.lhsIdx
  rw [dif_neg (show ¬(1 : Fin S4x128x512.rank) ∈ dot_S4x128x512_S4x2048x512_S4x128x2048_2_2_1_1_0_0.lhsBatch by decide),
    dif_pos (show (1 : Fin S4x128x512.rank) ∈ dot_S4x128x512_S4x2048x512_S4x128x2048_2_2_1_1_0_0.lhsNonContracting by decide)]
  rfl

/-- The left operand's lane coordinate is the contraction position. -/
theorem g1_lhs_axis2 (i : S4x128x2048.Idx) (q : dot_S4x128x512_S4x2048x512_S4x128x2048_2_2_1_1_0_0.contr.Idx) :
    (dot_S4x128x512_S4x2048x512_S4x128x2048_2_2_1_1_0_0.lhsIdx i q 2).val = (q ⟨0, by decide⟩).val :=
  dot_S4x128x512_S4x2048x512_S4x128x2048_2_2_1_1_0_0.lhsIdx_val_of_single rfl i q

/-- The right operand's image coordinate is the result's. -/
theorem g1_rhs_axis0 (i : S4x128x2048.Idx) (q : dot_S4x128x512_S4x2048x512_S4x128x2048_2_2_1_1_0_0.contr.Idx) :
    (dot_S4x128x512_S4x2048x512_S4x128x2048_2_2_1_1_0_0.rhsIdx i q 0).val = (i 0).val := by
  unfold DotDims.rhsIdx
  rw [dif_pos (show (0 : Fin S4x2048x512.rank) ∈ dot_S4x128x512_S4x2048x512_S4x128x2048_2_2_1_1_0_0.rhsBatch by decide)]
  rfl

/-- The right operand's pixel coordinate is the result's last coordinate. -/
theorem g1_rhs_axis1 (i : S4x128x2048.Idx) (q : dot_S4x128x512_S4x2048x512_S4x128x2048_2_2_1_1_0_0.contr.Idx) :
    (dot_S4x128x512_S4x2048x512_S4x128x2048_2_2_1_1_0_0.rhsIdx i q 1).val = (i 2).val := by
  unfold DotDims.rhsIdx
  rw [dif_neg (show ¬(1 : Fin S4x2048x512.rank) ∈ dot_S4x128x512_S4x2048x512_S4x128x2048_2_2_1_1_0_0.rhsBatch by decide),
    dif_pos (show (1 : Fin S4x2048x512.rank) ∈ dot_S4x128x512_S4x2048x512_S4x128x2048_2_2_1_1_0_0.rhsNonContracting by decide)]
  rfl

/-- The right operand's lane coordinate is the contraction position. -/
theorem g1_rhs_axis2 (i : S4x128x2048.Idx) (q : dot_S4x128x512_S4x2048x512_S4x128x2048_2_2_1_1_0_0.contr.Idx) :
    (dot_S4x128x512_S4x2048x512_S4x128x2048_2_2_1_1_0_0.rhsIdx i q 2).val = (q ⟨0, by decide⟩).val :=
  dot_S4x128x512_S4x2048x512_S4x128x2048_2_2_1_1_0_0.rhsIdx_val_of_single rfl i q

/-- The batched product into a zero accumulator at (b, r, q): the sum over the 512 lanes of left[b, r, k] · right[b, q, k]. -/
theorem g1_matmul_at (lhs : FVec Ideal S4x128x512 .bf16) (rhs : FVec Ideal S4x2048x512 .bf16) (b : Fin 4) (r : Fin 128) (q : Fin 2048) :
    matmul dot_S4x128x512_S4x2048x512_S4x128x2048_2_2_1_1_0_0 none lhs rhs (constant (F := Ideal) S4x128x2048 .f32 0x00000000#32) (ix3 b r q)
      = ∑ k : Fin 512, lhs (ix3 b r k) * rhs (ix3 b q k) := by
  refine (Ideal.matmul_constant_zero_apply dot_S4x128x512_S4x2048x512_S4x128x2048_2_2_1_1_0_0 none lhs rhs (ix3 b r q)).trans ?_
  rw [← Equiv.sum_comp (contrEquiv1 dot_S4x128x512_S4x2048x512_S4x128x2048_2_2_1_1_0_0 512 rfl rfl).symm]
  refine Finset.sum_congr rfl fun k _ => ?_
  have hk := contrEquiv1_symm_val dot_S4x128x512_S4x2048x512_S4x128x2048_2_2_1_1_0_0 512 rfl rfl k
  have el : dot_S4x128x512_S4x2048x512_S4x128x2048_2_2_1_1_0_0.lhsIdx (ix3 b r q)
      ((contrEquiv1 dot_S4x128x512_S4x2048x512_S4x128x2048_2_2_1_1_0_0 512 rfl rfl).symm k) = ix3 b r k :=
    funext fun a => Fin.ext (by
      match a with
      | ⟨0, _⟩ => exact g1_lhs_axis0 _ _
      | ⟨1, _⟩ => exact g1_lhs_axis1 _ _
      | ⟨2, _⟩ => exact (g1_lhs_axis2 _ _).trans hk)
  have er : dot_S4x128x512_S4x2048x512_S4x128x2048_2_2_1_1_0_0.rhsIdx (ix3 b r q)
      ((contrEquiv1 dot_S4x128x512_S4x2048x512_S4x128x2048_2_2_1_1_0_0 512 rfl rfl).symm k) = ix3 b q k :=
    funext fun a => Fin.ext (by
      match a with
      | ⟨0, _⟩ => exact g1_rhs_axis0 _ _
      | ⟨1, _⟩ => exact g1_rhs_axis1 _ _
      | ⟨2, _⟩ => exact (g1_rhs_axis2 _ _).trans hk)
  rw [el, er]

/-! ## The layout operations at an index -/

/-- The cell numbers carried [4, 1, 2048] → [4, 2048] → [4, 2048, 1] keep their row-major place, and the repetition along
    the lanes reads lane 0 of the unit axis: entry (b, q, k) is pixel q's cell number in image b. -/
theorem g1_cell_at {α : Type} (x : S4x1x2048.Idx → α) (h1 : S4x1x2048.ShapeCasts S4x1x2048) (h2 : S4x1x2048.ShapeCasts S4x2048)
    (h3 : S4x2048.ShapeCasts S4x2048x1) (h4 : S4x2048x1.Broadcasts S4x2048x512) (b : Fin 4) (q : Fin 2048) (k : Fin 512) :
    broadcastTo S4x2048x512 (shapeCast S4x2048x1 (shapeCast S4x2048 (shapeCast S4x1x2048 x h1) h2) h3) h4 (ix3 b q k)
      = x (ix3 b (0 : Fin 1) q) := by
  rw [shapeCast_self]
  refine (broadcastTo_apply _ h4 (ix3 b q k) (ix3 b q (0 : Fin 1)) (fun a => ?_)).trans ?_
  · match a with
    | ⟨0, _⟩ => rfl
    | ⟨1, _⟩ => rfl
    | ⟨2, _⟩ => rfl
  refine (shapeCast_apply _ h3 (ix3 b q (0 : Fin 1)) (ix2 b q) ?_).trans ?_
  · rw [Shape.rowMajor_val_two, Shape.rowMajor_val_three]
    show b.val * 2048 + q.val = (b.val * 2048 + q.val) * 1 + 0
    omega
  refine (shapeCast_apply _ h2 (ix2 b q) (ix3 b (0 : Fin 1) q) ?_).trans rfl
  rw [Shape.rowMajor_val_two, Shape.rowMajor_val_three]
  show (b.val * 1 + 0) * 2048 + q.val = b.val * 2048 + q.val
  omega

/-- The lane numbers 0 … 511 repeated along images and pixels: entry (b, q, k) is the word k. -/
theorem g1_lane_at (hi : S1x1x512.Iotas .tc 32 [2]) (hb : S1x1x512.Broadcasts S4x2048x512) (b : Fin 4) (q : Fin 2048) (k : Fin 512) :
    broadcastTo S4x2048x512 (iota .tc S1x1x512 32 [2] hi) hb (ix3 b q k) = BitVec.ofNat 32 k.val := by
  refine (broadcastTo_apply _ hb (ix3 b q k) (ix3 (0 : Fin 1) (0 : Fin 1) k) (fun a => ?_)).trans ?_
  · match a with
    | ⟨0, _⟩ => rfl
    | ⟨1, _⟩ => rfl
    | ⟨2, _⟩ => rfl
  exact iota_single_apply .tc S1x1x512 32 2 hi _

/-- The slice of rows 0 … 63 reads row c. -/
theorem g1_upper_at {α : Type} (x : S4x128x2048.Idx → α) (h : S4x128x2048.Slices ![0, 0, 0] S4x64x2048) (b : Fin 4) (c : Fin 64) (q : Fin 2048) :
    extractStridedSlice S4x64x2048 ![0, 0, 0] x h (ix3 b c q) = x (ix3 b (⟨c.val, by have := c.isLt; omega⟩ : Fin 128) q) := by
  refine extractStridedSlice_apply _ x h _ _ (fun a => ?_)
  match a with
  | ⟨0, _⟩ => show b.val = 0 + b.val; omega
  | ⟨1, _⟩ => show c.val = 0 + c.val; omega
  | ⟨2, _⟩ => show q.val = 0 + q.val; omega

/-- The slice of rows 64 … 127 reads row 64 + c. -/
theorem g1_lower_at {α : Type} (x : S4x128x2048.Idx → α) (h : S4x128x2048.Slices ![0, 64, 0] S4x64x2048) (b : Fin 4) (c : Fin 64) (q : Fin 2048) :
    extractStridedSlice S4x64x2048 ![0, 64, 0] x h (ix3 b c q) = x (ix3 b (⟨64 + c.val, by have := c.isLt; omega⟩ : Fin 128) q) := by
  refine extractStridedSlice_apply _ x h _ _ (fun a => ?_)
  match a with
  | ⟨0, _⟩ => show b.val = 0 + b.val; omega
  | ⟨1, _⟩ => show 64 + c.val = 64 + c.val; rfl
  | ⟨2, _⟩ => show q.val = 0 + q.val; omega

/-! ## The one-hot row -/

/-- The widened compare bit read as a number: one where the word is the lane's number, zero elsewhere. A lane's number
    is below 2 ^ 32, so the word equals the lane's word exactly when its value is the lane's number. -/
theorem g1_onehot_scalar (w : BitVec 32) (k : Fin 512) :
    FloatOps.sitofp (F := Ideal) .f32 ((IntOp.cmpi .eq w (BitVec.ofNat 32 k.val)).setWidth 32) = if w.toNat = k.val then (1 : EReal) else 0 := by
  have hk : k.val < 2 ^ 32 := by have := k.isLt; omega
  by_cases hw : w.toNat = k.val
  · have e : w = BitVec.ofNat 32 k.val := BitVec.eq_of_toNat_eq (by rw [BitVec.toNat_ofNat, Nat.mod_eq_of_lt hk]; exact hw)
    rw [if_pos hw, ← e]
    have : IntOp.cmpi .eq w w = 1#1 := by simp [IntOp.cmpi]
    rw [this]
    show (((BitVec.setWidth 32 1#1).toInt : ℝ) : EReal) = 1
    have : (BitVec.setWidth 32 1#1).toInt = 1 := by decide
    rw [this]; simp
  · have ne : ¬ w = BitVec.ofNat 32 k.val := fun e => hw (by rw [e, BitVec.toNat_ofNat, Nat.mod_eq_of_lt hk])
    rw [if_neg hw]
    have : IntOp.cmpi .eq w (BitVec.ofNat 32 k.val) = 0#1 := by
      show BitVec.ofBool (w == BitVec.ofNat 32 k.val) = 0#1
      rw [beq_eq_false_iff_ne.mpr ne]; rfl
    rw [this]
    show (((BitVec.setWidth 32 0#1).toInt : ℝ) : EReal) = 0
    have : (BitVec.setWidth 32 0#1).toInt = 0 := by decide
    rw [this]; simp

/-- The compare of two word arrays, widened, read as a number and narrowed to the short format, at an index where the
    first array holds the word w and the second the lane number k: 1 if w is k, else 0. -/
theorem g1_onehot_at (x y : IVec S4x2048x512 32) (hlt : 1 < 32) (hbits : FTy.bits .bf16 < FTy.bits .f32)
    (j : S4x2048x512.Idx) (k : Fin 512) (w : BitVec 32) (hx : x j = w) (hy : y j = BitVec.ofNat 32 k.val) :
    (truncf .bf16 (sitofp (F := Ideal) .f32 (extui 32 (cmpi .eq x y) hlt)) hbits : FVec Ideal S4x2048x512 .bf16) j
      = if w.toNat = k.val then (1 : EReal) else 0 := by
  show FloatOps.sitofp (F := Ideal) .f32 ((IntOp.cmpi .eq (x j) (y j)).setWidth 32) = _
  rw [hx, hy]
  exact g1_onehot_scalar w k

/-- A sum over the lanes against a row that is 1 at lane n and 0 elsewhere is the term at n: x · 1 = x and x · 0 = 0 for
    every extended real. -/
theorem g1_sum_onehot (f g : Fin 512 → EReal) (n : Nat) (hn : n < 512)
    (hg : ∀ k : Fin 512, g k = if n = k.val then (1 : EReal) else 0) :
    ∑ k : Fin 512, f k * g k = f ⟨n, hn⟩ := by
  rw [Finset.sum_eq_single (⟨n, hn⟩ : Fin 512)]
  · rw [hg, if_pos rfl, mul_one]
  · intro k _ hne
    rw [hg, if_neg (fun e => hne (Fin.ext e.symm)), mul_zero]
  · intro hmem
    exact absurd (Finset.mem_univ _) hmem

/-! ## The block -/

/-- Entry (b, c, q) of the block: rows c and 64 + c of image b's table at the column pixel q's cell number names,
    added; the number must be a column of the table. -/
theorem k1_pay1_at (v0 : Vec Ideal S4x1x2048 .i32) (v11 : Vec Ideal S4x128x512 .bf16) (b : Fin 4) (c : Fin 64) (q : Fin 2048)
    (h : (v0 (ix3 b (0 : Fin 1) q)).toNat < 512) :
    k1_pay1 (F := Ideal) v0 v11 (ix3 b c q)
      = v11 (ix3 b (⟨c.val, by have := c.isLt; omega⟩ : Fin 128) (⟨(v0 (ix3 b (0 : Fin 1) q)).toNat, h⟩ : Fin 512))
        + v11 (ix3 b (⟨64 + c.val, by have := c.isLt; omega⟩ : Fin 128) (⟨(v0 (ix3 b (0 : Fin 1) q)).toNat, h⟩ : Fin 512)) := by
  unfold k1_pay1
  dsimp only
  rw [addf_apply, g1_upper_at, g1_lower_at, g1_matmul_at, g1_matmul_at, shapeCast_self]
  rw [g1_sum_onehot _ _ _ h (fun k => g1_onehot_at _ _ _ _ (ix3 b q k) k _ (g1_cell_at v0 _ _ _ _ b q k) (g1_lane_at _ _ b q k)),
    g1_sum_onehot _ _ _ h (fun k => g1_onehot_at _ _ _ _ (ix3 b q k) k _ (g1_cell_at v0 _ _ _ _ b q k) (g1_lane_at _ _ b q k))]

end Cert.KernelIdeal.Pay

end
-- ==== Proof.R1Value.lean ====
/-
  The gather region's output array after the run, as one function of the table and the cell numbers it was entered
  with: entry (b, c, n) is the table's rows c and 64 + c of image b at the column pixel n's cell number names, added.
  Every point writes its own block of 2048 pixels back, and the 128 blocks tile the array.
-/
import proofs.«415683_j86517821214971_3_alg».proof.Proof.R1
import proofs.«415683_j86517821214971_3_alg».proof.Proof.Pay1
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-- Rows c and 64 + c of image b's table at the column pixel n's cell number names, added; zero where the number is
    no column of the table. -/
def G1 (tab : S4x128x512.Idx → EReal) (idx : S4x1x262144.Idx → BitVec 32) : S4x64x262144.Idx → EReal := fun j =>
  if h : (idx (ix3 (j 0) (0 : Fin 1) (j 2))).toNat < 512 then
    tab (ix3 (j 0) (⟨(j 1).val, by have h64 : (j 1).val < 64 := (j 1).isLt; omega⟩ : Fin 128) (⟨(idx (ix3 (j 0) (0 : Fin 1) (j 2))).toNat, h⟩ : Fin 512))
      + tab (ix3 (j 0) (⟨64 + (j 1).val, by have h64 : (j 1).val < 64 := (j 1).isLt; omega⟩ : Fin 128) (⟨(idx (ix3 (j 0) (0 : Fin 1) (j 2))).toNat, h⟩ : Fin 512))
  else 0

variable (V : (c : Dev nD) → (b : Ref sig .tc) → Buf (Elt Ideal) ((c : Thread nD τ).loc b))

/-- The zero offset of a rank-3 rectangle, as the constant function. -/
theorem hz3_g : (![0, 0, 0] : Fin 3 → Nat) = fun _ => 0 := funext fun a => by fin_cases a <;> rfl

/-- The three windows' block indices at every point of the grid: the table's block is always block (0, 0, 0); the
    cell numbers' block and the output's block at point t are both block (0, 0, t). -/
theorem idx_facts1 : ∀ t : Fin cfg1.N,
    win1_0.index t (0 : Fin 3) = 0 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val
    ∧ win1_2.index t (0 : Fin 3) = 0 ∧ win1_2.index t (1 : Fin 3) = 0 ∧ win1_2.index t (2 : Fin 3) = t.val :=
  (by decide +kernel : ∀ t : Fin grid1.N, _)

/-- An index of the output array is in point t's block iff each coordinate is in the block's range on its axis. -/
theorem mem_blk1 (t : Fin cfg1.N) (i : S4x64x262144.Idx) :
    i ∈ ((cfg1.win 2).blk t).view.set ↔ ∀ a : Fin 3, win1_2.index t a * S4x64x2048.size a ≤ (i a).val ∧ (i a).val < win1_2.index t a * S4x64x2048.size a + S4x64x2048.size a := by
  show i ∈ ((View.whole main_v21).slice (win1_2.rect t)).set ↔ _
  rw [View.set_slice_whole, Rect.mem_set_unit]
  exact Iff.rfl

/-- The payload at a table block x0 that is the whole table and a block x1 of cell numbers that is block p of the
    cell numbers' array, at entry (b, ch, q) of the output block: G1 of the table and the cell numbers at the entry's
    place i = (b, ch, p · 2048 + q) in the output array. -/
theorem pay_eq_G1 (tab : S4x128x512.Idx → EReal) (idx : S4x1x262144.Idx → BitVec 32)
    (x0 : Vec Ideal S4x128x512 .bf16) (x1 : Vec Ideal S4x1x2048 .i32) (p : Nat)
    (b : Fin 4) (ch : Fin 64) (q : Fin 2048) (i : S4x64x262144.Idx)
    (h0 : x0 = tab)
    (h1 : ∀ (z : S4x1x2048.Idx) (j : S4x1x262144.Idx), (j 0).val = (z 0).val → (j 2).val = p * 2048 + (z 2).val → x1 z = idx j)
    (hr : ∀ j : S4x1x262144.Idx, (idx j).toNat < 512)
    (e0 : (i 0).val = b.val) (e1 : (i 1).val = ch.val) (e2 : (i 2).val = p * 2048 + q.val) :
    k1_pay1 (F := Ideal) x1 x0 (ix3 b ch q) = G1 tab idx i := by
  subst h0
  have hcell : x1 (ix3 b (0 : Fin 1) q) = idx (ix3 (i 0) (0 : Fin 1) (i 2)) := h1 _ _ e0 e2
  have hlt : (x1 (ix3 b (0 : Fin 1) q)).toNat < 512 := by rw [hcell]; exact hr _
  rw [Pay.k1_pay1_at x1 x0 b ch q hlt]
  unfold G1
  rw [dif_pos (hr _)]
  have hrow : ∀ (r r' : Fin 128), r.val = r'.val →
      x0 (ix3 b r (⟨(x1 (ix3 b (0 : Fin 1) q)).toNat, hlt⟩ : Fin 512))
        = x0 (ix3 (i 0) r' (⟨(idx (ix3 (i 0) (0 : Fin 1) (i 2))).toNat, hr _⟩ : Fin 512)) := by
    intro r r' hrr
    refine congrArg x0 (funext fun a => ?_)
    match a with
    | ⟨0, _⟩ => exact Fin.ext e0.symm
    | ⟨1, _⟩ => exact Fin.ext hrr
    | ⟨2, _⟩ => exact Fin.ext (congrArg BitVec.toNat hcell)
  exact congr (congrArg HAdd.hAdd (hrow _ _ e1.symm)) (hrow _ _ (by show 64 + ch.val = 64 + (i 1).val; omega))

/-- What point t writes back is block t of G1 of the table and the cell numbers as the region finds them. -/
theorem flushed1_eq (c : Dev nD) (hr : ∀ j : S4x1x262144.Idx, ((V c main_v0 : S4x1x262144.Idx → BitVec 32) j).toNat < 512) (t : Fin cfg1.N) :
    (dat1 V c).flushed 2 t = ((cfg1.win 2).blk t).view.read (Elt Ideal) (G1 (V c main_v20) (V c main_v0)) := by
  show (cfg1.win 2).cut (grid1.coords t) ((dat1 V c).after 2 t) = _
  rw [after1_2]
  unfold out1_2
  rw [View.canon_unit_zero hz3_g]
  simp only [View.ld_unit_zero (S := S4x128x512) hz3_g, View.ld_unit_zero (S := S4x1x2048) hz3_g]
  obtain ⟨a0, a1, a2, i0, i1, i2, o0, o1, o2⟩ := idx_facts1 t
  funext y
  obtain ⟨b, ch, q, rfl⟩ : ∃ (b : Fin 4) (ch : Fin 64) (q : Fin 2048), y = ix3 b ch q := ⟨y 0, y 1, y 2, eq_ix3 y⟩
  show k1_pay1 (F := Ideal) (iblk1 V c 1 t) (iblk1 V c 0 t) (ix3 b ch q)
    = G1 (V c main_v20) (V c main_v0) (((cfg1.win 2).blk t).view.emb (ix3 b ch q))
  refine pay_eq_G1 (V c main_v20) (V c main_v0) (iblk1 V c 0 t) (iblk1 V c 1 t) t.val b ch q _ ?h0 ?h1 hr ?e0 ?e1 ?e2
  case h0 =>
    funext z
    show V c main_v20 (((cfg1.win 0).blk t).view.emb z) = V c main_v20 z
    refine congrArg (V c main_v20) (funext fun a => Fin.ext ?_)
    match a with
    | ⟨0, _⟩ => show win1_0.index t (0 : Fin 3) * 4 + 1 * (z 0).val = (z 0).val; omega
    | ⟨1, _⟩ => show win1_0.index t (1 : Fin 3) * 128 + 1 * (z 1).val = (z 1).val; omega
    | ⟨2, _⟩ => show win1_0.index t (2 : Fin 3) * 512 + 1 * (z 2).val = (z 2).val; omega
  case h1 =>
    intro z j hj0 hj2
    show V c main_v0 (((cfg1.win 1).blk t).view.emb z) = V c main_v0 j
    refine congrArg (V c main_v0) (funext fun a => Fin.ext ?_)
    match a with
    | ⟨0, _⟩ => show win1_1.index t (0 : Fin 3) * 4 + 1 * (z 0).val = (j 0).val; omega
    | ⟨1, _⟩ =>
      show win1_1.index t (1 : Fin 3) * 1 + 1 * (z 1).val = (j 1).val
      have hz : (z 1).val < 1 := (z 1).isLt
      have hj : (j 1).val < 1 := (j 1).isLt
      omega
    | ⟨2, _⟩ => show win1_1.index t (2 : Fin 3) * 2048 + 1 * (z 2).val = (j 2).val; omega
  case e0 => show win1_2.index t (0 : Fin 3) * 4 + 1 * b.val = b.val; omega
  case e1 => show win1_2.index t (1 : Fin 3) * 64 + 1 * ch.val = ch.val; omega
  case e2 => show win1_2.index t (2 : Fin 3) * 2048 + 1 * q.val = t.val * 2048 + q.val; omega

/-- Every index of the output array is in the block of the point that owns its pixel: pixel n lies in block n / 2048. -/
theorem covered1 (i : S4x64x262144.Idx) : ∃ t : Fin cfg1.N, (cfg1.win 2).flush t = true ∧ i ∈ ((cfg1.win 2).blk t).view.set := by
  have h0 : (i 0).val < 4 := (i 0).isLt
  have h1 : (i 1).val < 64 := (i 1).isLt
  have h2 : (i 2).val < 262144 := (i 2).isLt
  have hN : cfg1.N = 128 := N_1
  let t : Fin cfg1.N := ⟨(i 2).val / 2048, by rw [hN]; omega⟩
  obtain ⟨-, -, -, -, -, -, o0, o1, o2⟩ := idx_facts1 t
  have ht : t.val = (i 2).val / 2048 := rfl
  refine ⟨t, flush1_2 t, ?_⟩
  rw [mem_blk1]
  intro a
  match a with
  | ⟨0, _⟩ => show win1_2.index t (0 : Fin 3) * 4 ≤ (i 0).val ∧ (i 0).val < win1_2.index t (0 : Fin 3) * 4 + 4; omega
  | ⟨1, _⟩ => show win1_2.index t (1 : Fin 3) * 64 ≤ (i 1).val ∧ (i 1).val < win1_2.index t (1 : Fin 3) * 64 + 64; omega
  | ⟨2, _⟩ => show win1_2.index t (2 : Fin 3) * 2048 ≤ (i 2).val ∧ (i 2).val < win1_2.index t (2 : Fin 3) * 2048 + 2048; omega

/-- THE ARRAY after the region, when every cell number it was entered with is a column of the table. -/
theorem final1 (c : Dev nD) (hr : ∀ j : S4x1x262144.Idx, ((V c main_v0 : S4x1x262144.Idx → BitVec 32) j).toNat < 512) :
    ((dat1 V c).arrAt 2 cfg1.N : S4x64x262144.Idx → EReal) = G1 (V c main_v20) (V c main_v0) :=
  (dat1 V c).arrAt_eq_of_cover 2 (G1 (V c main_v20) (V c main_v0)) (fun t _ => flushed1_eq V c hr t) covered1

end Cert.KernelIdeal.Val

end
-- ==== Proof.HostMid.lean ====
/-
  The host operations around the two regions, read at an index on the extended reals. Before the reduce region the
  cell numbers are given a unit middle axis. Between the regions the two halves' partial sums and partial counts are
  added, the sums divided by the counts raised to at least one, and the table the gather region reads is the means
  (its rows 0 … 63) over the means' differences from themselves (its rows 64 … 127).
-/
import proofs.«415683_j86517821214971_3_alg».proof.Proof.Gen.KernelIdeal.Launch
import proofs.«415683_j86517821214971_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)

/-- The mean of channel c over cell k of image b, from the two halves' partial sums and partial counts. -/
def meanOf (s : S2x4x64x512.Idx → EReal) (n : S2x4x1x512.Idx → EReal) (b : Fin 4) (c : Fin 64) (k : Fin 512) : EReal :=
  Ideal.div (s (ix4 (0 : Fin 2) b c k) + s (ix4 (1 : Fin 2) b c k))
    (max (n (ix4 (0 : Fin 2) b (0 : Fin 1) k) + n (ix4 (1 : Fin 2) b (0 : Fin 1) k)) 1)

section Layout
variable {α : Type}

/-- A rank-4 array cut along axis 0 to the one plane at `o` reads, at `(u, b, c, e)`, the source at `(p, b, c, e)`
    with `p = o`. -/
theorem slice4_plane_apply {n0 n1 n2 n3 : Nat} (o : Nat) (X : (⟨4, ![n0, n1, n2, n3]⟩ : Shape).Idx → α)
    (h : (⟨4, ![n0, n1, n2, n3]⟩ : Shape).Slices ![o, 0, 0, 0] ⟨4, ![1, n1, n2, n3]⟩)
    (u : Fin 1) (b : Fin n1) (c : Fin n2) (e : Fin n3) (p : Fin n0) (hp : p.val = o) :
    extractStridedSlice ⟨4, ![1, n1, n2, n3]⟩ ![o, 0, 0, 0] X h (ix4 u b c e) = X (ix4 p b c e) :=
  extractStridedSlice_apply _ _ _ _ _ (fun ax => by
    match ax with
    | ⟨0, _⟩ =>
      show p.val = o + u.val
      have := u.isLt; omega
    | ⟨1, _⟩ => exact (Nat.zero_add _).symm
    | ⟨2, _⟩ => exact (Nat.zero_add _).symm
    | ⟨3, _⟩ => exact (Nat.zero_add _).symm)

/-- An `[a, 1, e]` array broadcast along its own three axes to `[a, m, e]` reads, at `(i, c, k)`, the operand's one
    middle entry at `(i, 0, k)`. -/
theorem broadcastInDim_a1e_ame_apply {a m e : Nat} (x : (⟨3, ![a, 1, e]⟩ : Shape).Idx → α)
    (h : (⟨3, ![a, 1, e]⟩ : Shape).BroadcastsInDim ⟨3, ![a, m, e]⟩ ![0, 1, 2])
    (i : Fin a) (c : Fin m) (k : Fin e) :
    broadcastInDim ⟨3, ![a, m, e]⟩ ![0, 1, 2] h x (ix3 i c k) = x (ix3 i (0 : Fin 1) k) := by
  refine broadcastInDim_apply _ h x (ix3 i c k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if e = 1 then 0 else k.val
    split
    · have := k.isLt; omega
    · rfl

end Layout

/-- The two halves' partial sums, added. -/
def halvesSum (s : S2x4x64x512.Idx → EReal) : FVec Ideal S4x64x512 .f32 :=
  addf
    (shapeCast S4x64x512 (extractStridedSlice S1x4x64x512 ![0, 0, 0, 0] s slices_S2x4x64x512_S1x4x64x512_0_0_0_0) shapeCasts_S1x4x64x512_S4x64x512)
    (shapeCast S4x64x512 (extractStridedSlice S1x4x64x512 ![1, 0, 0, 0] s slices_S2x4x64x512_S1x4x64x512_1_0_0_0) shapeCasts_S1x4x64x512_S4x64x512)

/-- The two halves' partial counts, added. -/
def halvesCount (n : S2x4x1x512.Idx → EReal) : FVec Ideal S4x1x512 .f32 :=
  addf
    (shapeCast S4x1x512 (extractStridedSlice S1x4x1x512 ![0, 0, 0, 0] n slices_S2x4x1x512_S1x4x1x512_0_0_0_0) shapeCasts_S1x4x1x512_S4x1x512)
    (shapeCast S4x1x512 (extractStridedSlice S1x4x1x512 ![1, 0, 0, 0] n slices_S2x4x1x512_S1x4x1x512_1_0_0_0) shapeCasts_S1x4x1x512_S4x1x512)

/-- The added sums divided by the added counts raised to at least one, as an array. -/
def meanArr (s : S2x4x64x512.Idx → EReal) (n : S2x4x1x512.Idx → EReal) : FVec Ideal S4x64x512 .f32 :=
  Host.divf (halvesSum s)
    (broadcastInDim S4x64x512 ![0, 1, 2] bcast_S4x1x512_S4x64x512_0_1_2
      (maximumf (halvesCount n) (broadcastInDim S4x1x512 ![] bcast_S_S4x1x512 (constant (F := Ideal) S_ .f32 0x3F800000#32))))

/-- The added sums at `(b, c, k)` are the two halves' entries there, added. -/
theorem halvesSum_at (s : S2x4x64x512.Idx → EReal) (b : Fin 4) (c : Fin 64) (k : Fin 512) :
    halvesSum s (ix3 b c k) = s (ix4 (0 : Fin 2) b c k) + s (ix4 (1 : Fin 2) b c k) := by
  unfold halvesSum
  rw [addf_apply, shapeCast_1abc_abc_apply, shapeCast_1abc_abc_apply,
    slice4_plane_apply 0 _ _ _ _ _ _ (0 : Fin 2) rfl, slice4_plane_apply 1 _ _ _ _ _ _ (1 : Fin 2) rfl]

/-- The added counts at `(b, 0, k)` are the two halves' entries there, added. -/
theorem halvesCount_at (n : S2x4x1x512.Idx → EReal) (b : Fin 4) (k : Fin 512) :
    halvesCount n (ix3 b (0 : Fin 1) k) = n (ix4 (0 : Fin 2) b (0 : Fin 1) k) + n (ix4 (1 : Fin 2) b (0 : Fin 1) k) := by
  unfold halvesCount
  rw [addf_apply, shapeCast_1abc_abc_apply, shapeCast_1abc_abc_apply,
    slice4_plane_apply 0 _ _ _ _ _ _ (0 : Fin 2) rfl, slice4_plane_apply 1 _ _ _ _ _ _ (1 : Fin 2) rfl]

/-- The quotient array at `(b, c, k)` is the mean of channel `c` over cell `k` of image `b`. -/
theorem meanArr_at (s : S2x4x64x512.Idx → EReal) (n : S2x4x1x512.Idx → EReal) (b : Fin 4) (c : Fin 64) (k : Fin 512) :
    meanArr s n (ix3 b c k) = meanOf s n b c k := by
  unfold meanArr meanOf
  rw [hostDivf_apply, halvesSum_at, broadcastInDim_a1e_ame_apply, maximumf_apply, halvesCount_at,
    broadcastInDim_scalar_apply, constant_apply, Ideal.ofBits_one_f32]

/-- The table the gather region reads, as one term over the reduce region's two outputs: the means over the means'
    differences from themselves. -/
theorem v20_term (Wv : Valuation τ sig (Elt Ideal)) :
    StableHlo.after (hostOps1 (F := Ideal)) Wv (Proc.devRef .tc main_v20)
      = concatenate S4x128x512 1
          [⟨S4x64x512, (truncf .bf16 (meanArr (Wv (Proc.devRef .tc main_v1_0)) (Wv (Proc.devRef .tc main_v1_1))) bitsLt_bf16_f32 : FVec Ideal S4x64x512 .bf16)⟩,
           ⟨S4x64x512, (truncf .bf16 (subf (meanArr (Wv (Proc.devRef .tc main_v1_0)) (Wv (Proc.devRef .tc main_v1_1)))
              (extf .f32 (truncf .bf16 (meanArr (Wv (Proc.devRef .tc main_v1_0)) (Wv (Proc.devRef .tc main_v1_1))) bitsLt_bf16_f32 : FVec Ideal S4x64x512 .bf16) bitsLt_bf16_f32)) bitsLt_bf16_f32 : FVec Ideal S4x64x512 .bf16)⟩]
          concatenates_S4x64x512_S4x64x512_S4x128x512_d1 := by
  show StableHlo.after (hostOps1 (F := Ideal)) Wv (Proc.devRef .tc main_v20) = _
  after_results
  rfl

/-- The reshape before the reduce region gives the cell numbers a unit middle axis and nothing else. -/
theorem v0_at (Wv : Valuation τ sig (Elt Ideal)) (b : Fin 4) (n : Fin 262144) :
    (StableHlo.after (hostOps0 (F := Ideal)) Wv (Proc.devRef .tc main_v0) : S4x1x262144.Idx → BitVec 32) (ix3 b (0 : Fin 1) n)
      = (Wv (Proc.devRef .tc main_arg1) : S4x262144.Idx → BitVec 32) (ix2 b n) := by
  have h : StableHlo.after (hostOps0 (F := Ideal)) Wv (Proc.devRef .tc main_v0)
      = shapeCast S4x1x262144 (Wv (Proc.devRef .tc main_arg1)) shapeCasts_S4x262144_S4x1x262144 := by
    show StableHlo.after (hostOps0 (F := Ideal)) Wv (Proc.devRef .tc main_v0) = _
    after_results
    rfl
  rw [h]
  refine shapeCast_apply _ _ _ _ ?_
  show (S4x262144.rowMajor (ix2 b n)).val = (S4x1x262144.rowMajor (ix3 b (0 : Fin 1) n)).val
  rw [Shape.rowMajor_val_two, Shape.rowMajor_val_three]
  show b.val * 262144 + n.val = (b.val * 1 + 0) * 262144 + n.val
  omega

/-- The twenty operations between the regions do not write the cell numbers' array. -/
theorem v0_kept (Wv : Valuation τ sig (Elt Ideal)) :
    StableHlo.after (hostOps1 (F := Ideal)) Wv (Proc.devRef .tc main_v0) = Wv (Proc.devRef .tc main_v0) :=
  StableHlo.after_of_writes_sub (hostOps1 (F := Ideal)) Wv hostOps1_writes (by decide)

/-- Rows 0 … 63 of the table are the means. -/
theorem hilo_lower (Wv : Valuation τ sig (Elt Ideal)) (b : Fin 4) (c : Fin 64) (k : Fin 512) :
    (StableHlo.after (hostOps1 (F := Ideal)) Wv (Proc.devRef .tc main_v20) : S4x128x512.Idx → EReal)
        (ix3 b (⟨c.val, by have := c.isLt; omega⟩ : Fin 128) k)
      = meanOf (Wv (Proc.devRef .tc main_v1_0)) (Wv (Proc.devRef .tc main_v1_1)) b c k := by
  rw [v20_term]
  refine (concatenate_pair_apply_left (t := S4x128x512) (s₁ := S4x64x512) (s₂ := S4x64x512) 1 _ _
    concatenates_S4x64x512_S4x64x512_S4x128x512_d1 _ rfl (ix3 b c k) (fun ax => ?_)).trans ?_
  · match ax with
    | ⟨0, _⟩ => rfl
    | ⟨1, _⟩ => rfl
    | ⟨2, _⟩ => rfl
  · rw [truncf_apply, meanArr_at]

/-- Rows 64 … 127 of the table are the means' differences from themselves. -/
theorem hilo_upper (Wv : Valuation τ sig (Elt Ideal)) (b : Fin 4) (c : Fin 64) (k : Fin 512) :
    (StableHlo.after (hostOps1 (F := Ideal)) Wv (Proc.devRef .tc main_v20) : S4x128x512.Idx → EReal)
        (ix3 b (⟨64 + c.val, by have := c.isLt; omega⟩ : Fin 128) k)
      = meanOf (Wv (Proc.devRef .tc main_v1_0)) (Wv (Proc.devRef .tc main_v1_1)) b c k
        - meanOf (Wv (Proc.devRef .tc main_v1_0)) (Wv (Proc.devRef .tc main_v1_1)) b c k := by
  rw [v20_term]
  refine (concatenate_pair_apply_right (t := S4x128x512) (s₁ := S4x64x512) (s₂ := S4x64x512) 1 _ _
    concatenates_S4x64x512_S4x64x512_S4x128x512_d1 _ rfl rfl (ix3 b c k) (fun ax hax => ?_) ?_).trans ?_
  · match ax with
    | ⟨0, _⟩ => rfl
    | ⟨1, _⟩ => exact absurd rfl hax
    | ⟨2, _⟩ => rfl
  · show c.val + 64 = 64 + c.val
    omega
  · rw [truncf_apply, subf_apply, extf_apply, truncf_apply, meanArr_at]

end Cert.KernelIdeal.Val

end
-- ==== Proof.Spec.lean ====
/-
  The function both programs compute, entry by entry, on the extended reals.

  A pixel n of image b carries a cell number idx (b, n) and, per channel c, a feature feat (b, c, n). For a cell
  number k the CELL SUM of channel c is the sum of the features of the pixels of image b whose number is k, the
  CELL COUNT the number of those pixels, and the CELL MEAN their quotient, the count raised to at least one so that
  an empty cell has mean zero over one. The result at (b, c, n) is the mean of channel c over the cell pixel n
  lies in. Sums and counts are written as sums over ALL pixels of a term that is zero off the cell, which is the
  form both a one-hot matrix product and an accumulating scatter read as.
-/
import Idealize.ShloMosaic.Lib.ValueIdx
import Idealize.ShloMosaic.PureOps.Ideal

noncomputable section

namespace Cert.Spec

open Idealize.ShloMosaic Idealize.ShloMosaic.ValueIdx

/-- The features' index set: 4 images, 64 channels, 262144 pixels. -/
abbrev SF : Shape := ⟨3, ![4, 64, 262144]⟩
/-- The cell numbers' index set: 4 images, 262144 pixels. -/
abbrev SI : Shape := ⟨2, ![4, 262144]⟩

/-- The sum of channel c's features over the pixels of image b numbered k. -/
def cellSum (feat : SF.Idx → EReal) (idx : SI.Idx → BitVec 32) (b : Fin 4) (c : Fin 64) (k : ℕ) : EReal :=
  ∑ n : Fin 262144, if (idx (ix2 b n)).toNat = k then feat (ix3 b c n) else 0

/-- The number of pixels of image b numbered k, as an extended real. -/
def cellCnt (idx : SI.Idx → BitVec 32) (b : Fin 4) (k : ℕ) : EReal :=
  ∑ n : Fin 262144, if (idx (ix2 b n)).toNat = k then (1 : EReal) else 0

/-- The mean of channel c over cell k of image b; an empty cell divides by one. -/
def cellMean (feat : SF.Idx → EReal) (idx : SI.Idx → BitVec 32) (b : Fin 4) (c : Fin 64) (k : ℕ) : EReal :=
  Ideal.div (cellSum feat idx b c k) (max (cellCnt idx b k) 1)

/-- Every pixel receives the mean of its own cell. -/
def G (feat : SF.Idx → EReal) (idx : SI.Idx → BitVec 32) : SF.Idx → EReal :=
  fun i => cellMean feat idx (i 0) (i 1) (idx (ix2 (i 0) (i 2))).toNat

theorem G_apply (feat : SF.Idx → EReal) (idx : SI.Idx → BitVec 32) (b : Fin 4) (c : Fin 64) (n : Fin 262144) :
    G feat idx (ix3 b c n) = cellMean feat idx b c (idx (ix2 b n)).toNat := rfl

end Cert.Spec

end
-- ==== Proof.SpecAlg.lean ====
/-
  Arithmetic of the cell sums on the extended reals: the pixels of an image cut into 2 halves of 64 tiles of 2048,
  and what finiteness of the features gives.
-/
import proofs.«415683_j86517821214971_3_alg».proof.Proof.Spec
import Mathlib.Algebra.BigOperators.Fin
import Mathlib.Algebra.BigOperators.Group.Finset.Basic
import Mathlib.Data.Fintype.BigOperators
import Mathlib.Data.EReal.Basic
import Mathlib.Data.EReal.Operations

noncomputable section

namespace Cert.Spec

open Idealize.ShloMosaic Idealize.ShloMosaic.ValueIdx

/-- Pixel q of tile i of half p: the pixels of an image are 2 halves of 64 tiles of 2048 pixels, in order. -/
def pix (p : Fin 2) (i : Fin 64) (q : Fin 2048) : Fin 262144 :=
  ⟨(p.val * 64 + i.val) * 2048 + q.val, by have := p.isLt; have := i.isLt; have := q.isLt; omega⟩

/-- One tile's share of a cell sum. -/
def tileSum (feat : SF.Idx → EReal) (idx : SI.Idx → BitVec 32) (b : Fin 4) (c : Fin 64) (k : ℕ) (p : Fin 2) (i : Fin 64) : EReal :=
  ∑ q : Fin 2048, if (idx (ix2 b (pix p i q))).toNat = k then feat (ix3 b c (pix p i q)) else 0

/-- One tile's share of a cell count. -/
def tileCnt (idx : SI.Idx → BitVec 32) (b : Fin 4) (k : ℕ) (p : Fin 2) (i : Fin 64) : EReal :=
  ∑ q : Fin 2048, if (idx (ix2 b (pix p i q))).toNat = k then (1 : EReal) else 0

/-- The pixels of an image are, one to one, the triples (half, tile, pixel of the tile): the half is the quotient
by 131072, the tile the quotient by 2048 reduced mod 64, the pixel of the tile the remainder mod 2048. -/
def pixEquiv : Fin 2 × Fin 64 × Fin 2048 ≃ Fin 262144 where
  toFun t := pix t.1 t.2.1 t.2.2
  invFun n := (⟨n.val / 131072, by have := n.isLt; omega⟩, ⟨(n.val / 2048) % 64, by omega⟩, ⟨n.val % 2048, by omega⟩)
  left_inv := by
    rintro ⟨p, i, q⟩
    have hp := p.isLt; have hi := i.isLt; have hq := q.isLt
    refine Prod.ext (Fin.ext ?_) (Prod.ext (Fin.ext ?_) (Fin.ext ?_))
    · show ((p.val * 64 + i.val) * 2048 + q.val) / 131072 = p.val
      omega
    · show (((p.val * 64 + i.val) * 2048 + q.val) / 2048) % 64 = i.val
      omega
    · show ((p.val * 64 + i.val) * 2048 + q.val) % 2048 = q.val
      omega
  right_inv := by
    intro n
    have hn := n.isLt
    refine Fin.ext ?_
    show ((n.val / 131072) * 64 + (n.val / 2048) % 64) * 2048 + n.val % 2048 = n.val
    omega

/-- A sum over the pixels of an image, in a commutative monoid, is the two halves' sums over tiles of the sums
over the pixels of a tile: reindexing along the bijection above and splitting the triple sum. -/
theorem sum_pix {M : Type*} [AddCommMonoid M] (g : Fin 262144 → M) :
    ∑ n : Fin 262144, g n
      = (∑ i : Fin 64, ∑ q : Fin 2048, g (pix 0 i q)) + (∑ i : Fin 64, ∑ q : Fin 2048, g (pix 1 i q)) := by
  rw [← pixEquiv.sum_comp g, Fintype.sum_prod_type, Fin.sum_univ_two, Fintype.sum_prod_type, Fintype.sum_prod_type]
  rfl

/-- A finite sum of real numbers, formed in the extended reals, is a real number. -/
theorem exists_real_sum {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

/-- A cell sum is the two halves' sums of their tiles' shares. -/
theorem cellSum_split (feat : SF.Idx → EReal) (idx : SI.Idx → BitVec 32) (b : Fin 4) (c : Fin 64) (k : ℕ) :
    cellSum feat idx b c k = (∑ i : Fin 64, tileSum feat idx b c k 0 i) + (∑ i : Fin 64, tileSum feat idx b c k 1 i) := by
  unfold cellSum tileSum
  exact sum_pix _

/-- A cell count is the two halves' sums of their tiles' shares. -/
theorem cellCnt_split (idx : SI.Idx → BitVec 32) (b : Fin 4) (k : ℕ) :
    cellCnt idx b k = (∑ i : Fin 64, tileCnt idx b k 0 i) + (∑ i : Fin 64, tileCnt idx b k 1 i) := by
  unfold cellCnt tileCnt
  exact sum_pix _

/-- Over finite features every cell mean is a real number. -/
theorem cellMean_real (feat : SF.Idx → EReal) (idx : SI.Idx → BitVec 32) (hf : ∀ i, ∃ r : ℝ, feat i = (r : EReal))
    (b : Fin 4) (c : Fin 64) (k : ℕ) : ∃ r : ℝ, cellMean feat idx b c k = (r : EReal) := by
  -- the cell sum is a finite sum of reals and zeros
  obtain ⟨s, hs⟩ : ∃ s : ℝ, cellSum feat idx b c k = (s : EReal) := by
    unfold cellSum
    refine exists_real_sum _ _ (fun n _ => ?_)
    split_ifs
    · exact hf _
    · exact ⟨0, EReal.coe_zero.symm⟩
  -- the cell count is a finite sum of ones and zeros
  obtain ⟨t, ht⟩ : ∃ t : ℝ, cellCnt idx b k = (t : EReal) := by
    unfold cellCnt
    refine exists_real_sum _ _ (fun n _ => ?_)
    split_ifs
    · exact ⟨1, EReal.coe_one.symm⟩
    · exact ⟨0, EReal.coe_zero.symm⟩
  -- the divisor is the real number max t 1, at least one, so not zero
  have hmax : max (cellCnt idx b k) 1 = ((max t 1 : ℝ) : EReal) := by
    rw [ht]
    rcases le_total t 1 with h | h
    · rw [max_eq_right h, max_eq_right (by exact_mod_cast h), EReal.coe_one]
    · rw [max_eq_left h, max_eq_left (by exact_mod_cast h)]
  have hne : max t 1 ≠ 0 := ne_of_gt (lt_of_lt_of_le one_pos (le_max_right t 1))
  refine ⟨s * (1 / max t 1), ?_⟩
  rw [cellMean, hmax, Ideal.div_coe hne, hs, EReal.coe_mul]

/-- A real number plus its difference from itself is itself (false at the infinities). -/
theorem add_sub_self_real (x : EReal) (h : ∃ r : ℝ, x = (r : EReal)) : x + (x - x) = x := by
  obtain ⟨r, rfl⟩ := h
  rw [← EReal.coe_sub, sub_self, EReal.coe_zero, add_zero]

/-- A running sum started at zero and stepped once per term is the sum of the terms. -/
theorem run_eq_sum (f : ℕ → EReal) (acc : ℕ → EReal) (h0 : acc 0 = 0 + f 0) (hs : ∀ n, acc (n + 1) = acc n + f (n + 1)) (n : ℕ) :
    acc n = ∑ j ∈ Finset.range (n + 1), f j := by
  induction n with
  | zero => rw [h0, zero_add, Finset.sum_range_one]
  | succ n ih => rw [hs, ih, Finset.sum_range_succ _ (n + 1)]

end Cert.Spec

end
-- ==== Proof.Bridge.lean ====
/-
  The kernel program's result is the specification's function of its two inputs. Walking back from the result:
  the gather region leaves, at pixel n of channel c of image b, rows c and 64 + c of the table at column κ, the
  pixel's cell number; the table's row c is the mean m of channel c over cell κ and its row 64 + c is m - m; the mean
  is the quotient of the two halves' partial sums, added, by their partial counts, added and raised to at least one;
  each half's partial sum is the sum of its 64 tiles' shares, so the two together are the whole cell sum, and
  likewise the counts. Over finite features m is a real number, m - m = 0, and the result is m.
-/
import proofs.«415683_j86517821214971_3_alg».proof.Proof.Run
import proofs.«415683_j86517821214971_3_alg».proof.Proof.R0Value
import proofs.«415683_j86517821214971_3_alg».proof.Proof.R1Value
import proofs.«415683_j86517821214971_3_alg».proof.Proof.HostMid
import proofs.«415683_j86517821214971_3_alg».proof.Proof.SpecAlg

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

open Cert.Spec

variable (m : (ℓ : Loc nD τ sig) → Buf (Elt Ideal) ℓ)

/-- The features as launched. -/
abbrev featOf (c : Dev nD) : SF.Idx → EReal := m ((c : Thread nD τ).loc main_arg0)
/-- The cell numbers as launched. -/
abbrev idxOf (c : Dev nD) : SI.Idx → BitVec 32 := m ((c : Thread nD τ).loc main_arg1)

/-! ## What the reduce region is entered with -/

/-- The features reach the reduce region as launched. -/
theorem V1_feat (c : Dev nD) : (Fr.V1 m c main_arg0 : SF.Idx → EReal) = featOf m c :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The cell numbers reach it under a unit middle axis. -/
theorem V1_idx (c : Dev nD) (b : Fin 4) (n : Fin 262144) :
    (Fr.V1 m c main_v0 : S4x1x262144.Idx → BitVec 32) (ix3 b (0 : Fin 1) n) = idxOf m c (ix2 b n) :=
  v0_at (Fr.W0 m c) b n

/-- A tile's share of a cell sum, in the specification's words. -/
theorem tS_eq (c : Dev nD) (b : Fin 4) (ch : Fin 64) (k : Fin 512) (p : Fin 2) (i : Fin 64) :
    tS (Fr.V1 m) c b ch k (p.val * 64 + i.val) = tileSum (featOf m c) (idxOf m c) b ch k.val p i := by
  unfold tS tileSum
  refine Finset.sum_congr rfl fun q _ => ?_
  have hq : pixN (p.val * 64 + i.val) q = pix p i q := by
    apply Fin.ext
    show ((p.val * 64 + i.val) * 2048 + q.val) % 262144 = (p.val * 64 + i.val) * 2048 + q.val
    have := p.isLt; have := i.isLt; have := q.isLt; omega
  rw [hq, V1_idx m c b (pix p i q), V1_feat m c]

/-- A tile's share of a cell count, in the specification's words. -/
theorem tC_eq (c : Dev nD) (b : Fin 4) (k : Fin 512) (p : Fin 2) (i : Fin 64) :
    tC (Fr.V1 m) c b k (p.val * 64 + i.val) = tileCnt (idxOf m c) b k.val p i := by
  unfold tC tileCnt
  refine Finset.sum_congr rfl fun q _ => ?_
  have hq : pixN (p.val * 64 + i.val) q = pix p i q := by
    apply Fin.ext
    show ((p.val * 64 + i.val) * 2048 + q.val) % 262144 = (p.val * 64 + i.val) * 2048 + q.val
    have := p.isLt; have := i.isLt; have := q.isLt; omega
  rw [hq, V1_idx m c b (pix p i q)]

/-! ## What the reduce region leaves -/

/-- Row p of the sums' output is half p's part of the cell sum. -/
theorem sums_row (c : Dev nD) (p : Fin 2) (b : Fin 4) (ch : Fin 64) (k : Fin 512) :
    (Fr.W2 m c (Proc.devRef .tc main_v1_0) : S2x4x64x512.Idx → EReal) (ix4 p b ch k)
      = ∑ i : Fin 64, tileSum (featOf m c) (idxOf m c) b ch k.val p i := by
  have h := congrFun ((Fr.W2_arr m c (2 : Fin cfg0.W)).trans (final0_2 (Fr.V1 m) c)) (ix4 p b ch k)
  refine h.trans ?_
  show ∑ i ∈ Finset.range 64, tS (Fr.V1 m) c b ch k (p.val * 64 + i) = _
  rw [Finset.sum_range]
  exact Finset.sum_congr rfl fun i _ => tS_eq m c b ch k p i

/-- Row p of the counts' output is half p's part of the cell count. -/
theorem cnts_row (c : Dev nD) (p : Fin 2) (b : Fin 4) (k : Fin 512) :
    (Fr.W2 m c (Proc.devRef .tc main_v1_1) : S2x4x1x512.Idx → EReal) (ix4 p b (0 : Fin 1) k)
      = ∑ i : Fin 64, tileCnt (idxOf m c) b k.val p i := by
  have h := congrFun ((Fr.W2_arr m c (3 : Fin cfg0.W)).trans (final0_3 (Fr.V1 m) c)) (ix4 p b (0 : Fin 1) k)
  refine h.trans ?_
  show ∑ i ∈ Finset.range 64, tC (Fr.V1 m) c b k (p.val * 64 + i) = _
  rw [Finset.sum_range]
  exact Finset.sum_congr rfl fun i _ => tC_eq m c b k p i

/-- The mean the host operations form from the two rows is the specification's cell mean. -/
theorem mean_eq (c : Dev nD) (b : Fin 4) (ch : Fin 64) (k : Fin 512) :
    meanOf (Fr.W2 m c (Proc.devRef .tc main_v1_0)) (Fr.W2 m c (Proc.devRef .tc main_v1_1)) b ch k
      = cellMean (featOf m c) (idxOf m c) b ch k.val := by
  unfold meanOf cellMean
  rw [sums_row m c 0 b ch k, sums_row m c 1 b ch k, cnts_row m c 0 b k, cnts_row m c 1 b k,
    ← cellSum_split, ← cellCnt_split]

/-! ## What the gather region is entered with, and the result -/

/-- The cell numbers reach the gather region as they reached the reduce region. -/
theorem V3_idx (c : Dev nD) (b : Fin 4) (n : Fin 262144) :
    (Fr.V3 m c main_v0 : S4x1x262144.Idx → BitVec 32) (ix3 b (0 : Fin 1) n) = idxOf m c (ix2 b n) := by
  have h1 : Fr.V3 m c main_v0 = Fr.W2 m c (Proc.devRef .tc main_v0) := v0_kept (Fr.W2 m c)
  have h2 : Fr.W2 m c (Proc.devRef .tc main_v0) = Fr.V1 m c main_v0 :=
    (Fr.W2_arr m c (1 : Fin cfg0.W)).trans (((dat0 (Fr.V1 m) c).arrAt_in 1 rfl _).trans (A_eq0 (Fr.V1 m) c 1))
  rw [h1, h2]
  exact V1_idx m c b n

/-- THE RESULT: with finite features and every cell number below 400, the kernel program's result buffer holds
    the specification's function of the inputs. -/
theorem result_eq (c : Dev nD) (hf : ∀ i, ∃ r : ℝ, featOf m c i = (r : EReal))
    (hr : ∀ j, (idxOf m c j).toNat < 400) :
    (Fr.W4 m c (Proc.devRef .tc main_v21) : SF.Idx → EReal) = G (featOf m c) (idxOf m c) := by
  have hr3 : ∀ j : S4x1x262144.Idx, ((Fr.V3 m c main_v0 : S4x1x262144.Idx → BitVec 32) j).toNat < 512 := by
    intro j
    obtain ⟨b, u, n, rfl⟩ : ∃ (b : Fin 4) (u : Fin 1) (n : Fin 262144), j = ix3 b u n := ⟨j 0, j 1, j 2, eq_ix3 j⟩
    obtain rfl : u = 0 := Subsingleton.elim _ _
    rw [V3_idx m c b n]
    have := hr (ix2 b n); omega
  refine ((Fr.W4_arr m c (2 : Fin cfg1.W)).trans (final1 (Fr.V3 m) c hr3)).trans ?_
  funext j
  obtain ⟨b, ch, n, rfl⟩ : ∃ (b : Fin 4) (ch : Fin 64) (n : Fin 262144), j = ix3 b ch n := ⟨j 0, j 1, j 2, eq_ix3 j⟩
  rw [G_apply]
  have hκ : ((Fr.V3 m c main_v0 : S4x1x262144.Idx → BitVec 32) (ix3 b (0 : Fin 1) n)).toNat < 512 := hr3 _
  have eκ : ((Fr.V3 m c main_v0 : S4x1x262144.Idx → BitVec 32) (ix3 b (0 : Fin 1) n)).toNat = (idxOf m c (ix2 b n)).toNat := by
    rw [V3_idx m c b n]
  unfold G1
  rw [dif_pos hκ]
  have hlo : (Fr.V3 m c main_v20 : S4x128x512.Idx → EReal) (ix3 b (⟨ch.val, by have h64 : ch.val < 64 := ch.isLt; omega⟩ : Fin 128) (⟨_, hκ⟩ : Fin 512))
      = cellMean (featOf m c) (idxOf m c) b ch ((Fr.V3 m c main_v0 : S4x1x262144.Idx → BitVec 32) (ix3 b (0 : Fin 1) n)).toNat :=
    (hilo_lower (Fr.W2 m c) b ch ⟨_, hκ⟩).trans (mean_eq m c b ch ⟨_, hκ⟩)
  have hup : (Fr.V3 m c main_v20 : S4x128x512.Idx → EReal) (ix3 b (⟨64 + ch.val, by have h64 : ch.val < 64 := ch.isLt; omega⟩ : Fin 128) (⟨_, hκ⟩ : Fin 512))
      = cellMean (featOf m c) (idxOf m c) b ch ((Fr.V3 m c main_v0 : S4x1x262144.Idx → BitVec 32) (ix3 b (0 : Fin 1) n)).toNat
        - cellMean (featOf m c) (idxOf m c) b ch ((Fr.V3 m c main_v0 : S4x1x262144.Idx → BitVec 32) (ix3 b (0 : Fin 1) n)).toNat :=
    (hilo_upper (Fr.W2 m c) b ch ⟨_, hκ⟩).trans (by rw [mean_eq m c b ch ⟨_, hκ⟩])
  refine (congrArg₂ (fun x y : EReal => x + y) hlo hup).trans ?_
  show cellMean (featOf m c) (idxOf m c) b ch _ + (cellMean (featOf m c) (idxOf m c) b ch _ - cellMean (featOf m c) (idxOf m c) b ch _) = _
  rw [add_sub_self_real _ (cellMean_real _ _ hf b ch _)]
  exact congrArg _ eκ

end Cert.KernelIdeal.Val

end
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.RefValue.lean ====
/-
  The reference's result, read entry by entry: the segment sums and counts, the means and the row take are the
  cell sums, counts and means of the pixel's own image, when every cell number lies in 0 … 399.
-/
import proofs.«415683_j86517821214971_3_alg».proof.Proof.Gen.ReferenceIdeal.Run
import proofs.«415683_j86517821214971_3_alg».proof.Proof.Gen.ReferenceIdeal.Read
import proofs.«415683_j86517821214971_3_alg».proof.Proof.Spec
import proofs.«415683_j86517821214971_3_alg».proof.Proof.LibScatterGather
import proofs.«415683_j86517821214971_3_alg».proof.Proof.LibGatherRows
import Idealize.ShloMosaic.Lib.StableHlo.Predicate
import Idealize.ShloMosaic.Lib.IdealHost

noncomputable section

namespace Cert.RefValue

open Idealize.ShloMosaic Idealize.ShloMosaic.ValueIdx Cert.ReferenceIdeal

/-! ## Flat pixel numbers: e = b · 262144 + n -/

/-- The image a flat pixel number lies in. -/
def hi (e : Fin 1048576) : Fin 4 := ⟨e.val / 262144, by have := e.isLt; omega⟩
/-- The pixel's number within its image. -/
def lo (e : Fin 1048576) : Fin 262144 := ⟨e.val % 262144, by omega⟩
/-- The flat number of pixel n of image b. -/
def flat (b : Fin 4) (n : Fin 262144) : Fin 1048576 := ⟨b.val * 262144 + n.val, by have := b.isLt; have := n.isLt; omega⟩

theorem hi_flat (b : Fin 4) (n : Fin 262144) : hi (flat b n) = b := by
  apply Fin.ext; have := n.isLt; show (b.val * 262144 + n.val) / 262144 = b.val; omega
theorem lo_flat (b : Fin 4) (n : Fin 262144) : lo (flat b n) = n := by
  apply Fin.ext; have := n.isLt; show (b.val * 262144 + n.val) % 262144 = n.val; omega
theorem flat_hi_lo (e : Fin 1048576) : flat (hi e) (lo e) = e := by
  apply Fin.ext; show e.val / 262144 * 262144 + e.val % 262144 = e.val; omega

/-- The flat pixel numbers are the pairs (image, pixel). -/
def flatEquiv : Fin 1048576 ≃ Fin 4 × Fin 262144 where
  toFun e := (hi e, lo e)
  invFun p := flat p.1 p.2
  left_inv e := flat_hi_lo e
  right_inv p := Prod.ext (hi_flat p.1 p.2) (lo_flat p.1 p.2)

/-- A sum over the flat pixel numbers is the sum over the images of the sums over their pixels. -/
theorem sum_flat {M : Type*} [AddCommMonoid M] (g : Fin 4 → Fin 262144 → M) :
    ∑ e : Fin 1048576, g (hi e) (lo e) = ∑ b : Fin 4, ∑ n : Fin 262144, g b n :=
  (Fintype.sum_equiv flatEquiv (fun e => g (hi e) (lo e)) (fun p => g p.1 p.2) (fun _ => rfl)).trans
    (Fintype.sum_prod_type' g)

/-! ## The segment word: the cell number plus 400 times the image number -/

/-- A cell number below 400 plus 400 times an image number below 4 does not wrap. -/
theorem word_toNat (a : BitVec 32) (b : ℕ) (ha : a.toNat < 400) (hb : b < 4) :
    (a + BitVec.ofNat 32 b * 400#32).toNat = b * 400 + a.toNat := by
  rw [BitVec.toNat_add, BitVec.toNat_mul, BitVec.toNat_ofNat]
  show (a.toNat + b % 2 ^ 32 * 400 % 2 ^ 32) % 2 ^ 32 = _
  omega

/-- Read signed, the segment word is the same number. -/
theorem word_toInt (a : BitVec 32) (b : ℕ) (ha : a.toNat < 400) (hb : b < 4) :
    (a + BitVec.ofNat 32 b * 400#32).toInt = ((b * 400 + a.toNat : ℕ) : ℤ) := by
  rw [StableHlo.Predicate.toInt_eq_toNat_of_lt (by rw [word_toNat a b ha hb]; omega), word_toNat a b ha hb]

/-! ## The segment numbers the reference computes -/

section Stages

variable (x0 : (⟨S4x64x262144, .f32⟩ : BufTy).Contents (Elt Ideal)) (x1 : (⟨S4x262144, .i32⟩ : BufTy).Contents (Elt Ideal))

/-- The segment word of pixel n of image b. -/
def seg (b : Fin 4) (n : Fin 262144) : BitVec 32 := x1 (ix2 b n) + BitVec.ofNat 32 b.val * 400#32

/-- Before the reshape, entry (b, n) of the segment numbers is the segment word. -/
theorem v5_at (b : Fin 4) (n : Fin 262144) : Read.val_main_v5 (F := Ideal) x1 (ix2 b n) = seg x1 b n := by
  rw [Read.val_main_v5_apply, Read.val_main_v4_apply, Read.val_main_v3_apply, Read.val_main_v1_apply,
    Read.val_main_v0_apply, Read.val_main_v2_apply, Read.val_main_c_apply]
  rfl

/-- The flat segment numbers: entry e is the segment word of e's image and pixel. -/
theorem v6_at (e : Fin 1048576) : Read.val_main_v6 (F := Ideal) x1 (ix1 e) = seg x1 (hi e) (lo e) := by
  rw [Read.val_main_v6_apply, ← v5_at]
  congr 1
  funext a
  match a with
  | ⟨0, _⟩ => rfl
  | ⟨1, _⟩ => rfl

/-- The index column of the sums' scatter. -/
theorem v10_at (e : Fin 1048576) : Read.val_main_v10 (F := Ideal) x1 (ix2 e (0 : Fin 1)) = seg x1 (hi e) (lo e) := by
  rw [Read.val_main_v10_apply, ← v6_at]
  congr 1
  funext a
  match a with
  | ⟨0, _⟩ => rfl

/-- The index column of the counts' scatter. -/
theorem v14_at (e : Fin 1048576) : Read.val_main_v14 (F := Ideal) x1 (ix2 e (0 : Fin 1)) = seg x1 (hi e) (lo e) := by
  rw [Read.val_main_v14_apply, ← v6_at]
  congr 1
  funext a
  match a with
  | ⟨0, _⟩ => rfl

/-- The update rows of the sums' scatter: row e, column j is channel j of e's pixel. -/
theorem v8_at (e : Fin 1048576) (j : Fin 64) :
    Read.val_main_v8 (F := Ideal) x0 (ix2 e j) = x0 (ix3 (hi e) j (lo e)) := by
  rw [Read.val_main_v8_apply, Read.val_main_v7_apply]
  congr 1
  funext a
  have he := e.isLt
  have hj := j.isLt
  match a with
  | ⟨0, _⟩ => apply Fin.ext; show (e.val * 64 + j.val) / 16777216 = e.val / 262144; omega
  | ⟨1, _⟩ => apply Fin.ext; show (e.val * 64 + j.val) % 64 = j.val; omega
  | ⟨2, _⟩ => apply Fin.ext; show (e.val * 64 + j.val) / 64 % 262144 = e.val % 262144; omega

end Stages

section Values

variable (x0 : (⟨S4x64x262144, .f32⟩ : BufTy).Contents (Elt Ideal)) (x1 : (⟨S4x262144, .i32⟩ : BufTy).Contents (Elt Ideal))

/-- A non-negative segment word is kept by the wrap of negative numbers. -/
theorem v25_at (hr : ∀ j, (x1 j).toNat < 400) (e : Fin 1048576) :
    Read.val_main_v25 (F := Ideal) x1 (ix1 e) = seg x1 (hi e) (lo e) := by
  rw [Read.val_main_v25_apply, Read.val_main_v22_apply, Read.val_main_v21_apply, Read.val_main_c_3_apply, v6_at]
  have hlt : (seg x1 (hi e) (lo e)).toNat < 2 ^ 31 := by
    unfold seg
    rw [word_toNat _ _ (hr _) (hi e).isLt]
    have := hr (ix2 (hi e) (lo e)); have := (hi e).isLt; omega
  have h0 : ¬ IntOp.cmpi .slt (seg x1 (hi e) (lo e)) 0#32 = 1#1 := by
    rw [StableHlo.Predicate.slt_iff_toNat hlt (by decide)]
    simp
  rw [eq_zero_of_ne_one h0, select_zero]

/-- The start column of the row take. -/
theorem v26_at (hr : ∀ j, (x1 j).toNat < 400) (e : Fin 1048576) :
    Read.val_main_v26 (F := Ideal) x1 (ix2 e (0 : Fin 1)) = seg x1 (hi e) (lo e) := by
  rw [Read.val_main_v26_apply, ← v25_at x1 hr]
  congr 1
  funext a
  match a with
  | ⟨0, _⟩ => rfl

/-- Of all pixels, those whose segment word is b · 400 + κ are the pixels of image b numbered κ. -/
theorem sum_cell {M : Type*} [AddCommMonoid M] (hr : ∀ j, (x1 j).toNat < 400) (b : Fin 4) (κ : ℕ) (hκ : κ < 400)
    (f : Fin 4 → Fin 262144 → M) :
    ∑ b' : Fin 4, ∑ n' : Fin 262144, (if (seg x1 b' n').toInt = ((b.val * 400 + κ : ℕ) : ℤ) then f b' n' else 0)
      = ∑ n : Fin 262144, if (x1 (ix2 b n)).toNat = κ then f b n else 0 := by
  rw [Finset.sum_eq_single b]
  · refine Finset.sum_congr rfl (fun n _ => ?_)
    unfold seg
    rw [word_toInt _ _ (hr _) b.isLt]
    refine if_congr ?_ rfl rfl
    constructor
    · intro h; have h' : b.val * 400 + (x1 (ix2 b n)).toNat = b.val * 400 + κ := by exact_mod_cast h
      omega
    · intro h; rw [h]
  · intro b' _ hb'
    apply Finset.sum_eq_zero
    intro n' _
    rw [if_neg]
    unfold seg
    rw [word_toInt _ _ (hr _) b'.isLt]
    intro h
    have h' : b'.val * 400 + (x1 (ix2 b' n')).toNat = b.val * 400 + κ := by exact_mod_cast h
    have h1 := hr (ix2 b' n')
    apply hb'
    apply Fin.ext
    omega
  · intro h
    exact absurd (Finset.mem_univ _) h

end Values

section Cells

variable (x0 : (⟨S4x64x262144, .f32⟩ : BufTy).Contents (Elt Ideal)) (x1 : (⟨S4x262144, .i32⟩ : BufTy).Contents (Elt Ideal))

/-- The segment sums: row b · 400 + κ, column j is the cell sum of channel j over cell κ of image b. -/
theorem sums_cell (hr : ∀ j, (x1 j).toNat < 400) (b : Fin 4) (κ : ℕ) (hκ : κ < 400) (r : Fin 1600)
    (hrv : r.val = b.val * 400 + κ) (j : Fin 64) :
    Read.val_main_v11 (F := Ideal) x0 x1 (ix2 r j) = Cert.Spec.cellSum x0 x1 b j κ := by
  unfold Read.val_main_v11
  rw [Cert.Lib.scatterAdd_rows _ rfl rfl rfl rfl]
  rw [Read.val_main_v9_apply, Read.val_main_cst_apply]
  change Ideal.ofBits .f32 0x00000000#32 + _ = _
  rw [Ideal.ofBits_zero_f32, zero_add]
  have hs : ∀ e : Fin 1048576,
      (if (Read.val_main_v10 (F := Ideal) x1 (ix2 e (0 : Fin 1))).toInt = (r.val : ℤ)
        then Read.val_main_v8 (F := Ideal) x0 (ix2 e j) else 0)
      = (fun b' n' => if (seg x1 b' n').toInt = ((b.val * 400 + κ : ℕ) : ℤ) then x0 (ix3 b' j n') else 0) (hi e) (lo e) := by
    intro e
    rw [v10_at, v8_at, hrv]
  refine (Finset.sum_congr rfl (fun e _ => hs e)).trans ?_
  refine (sum_flat (fun b' n' => if (seg x1 b' n').toInt = ((b.val * 400 + κ : ℕ) : ℤ) then x0 (ix3 b' j n') else 0)).trans ?_
  exact sum_cell x1 hr b κ hκ (fun b' n' => x0 (ix3 b' j n'))

/-- The segment counts: entry b · 400 + κ is the number of pixels of image b numbered κ. -/
theorem counts_cell (hr : ∀ j, (x1 j).toNat < 400) (b : Fin 4) (κ : ℕ) (hκ : κ < 400) (r : Fin 1600)
    (hrv : r.val = b.val * 400 + κ) :
    Read.val_main_v15 (F := Ideal) x1 (ix1 r) = Cert.Spec.cellCnt x1 b κ := by
  unfold Read.val_main_v15
  rw [Cert.Lib.scatterAdd_vec _ rfl rfl rfl rfl]
  rw [Read.val_main_v13_apply, Read.val_main_cst_1_apply]
  change Ideal.ofBits .f32 0x00000000#32 + _ = _
  rw [Ideal.ofBits_zero_f32, zero_add]
  have hs : ∀ e : Fin 1048576,
      (if (Read.val_main_v14 (F := Ideal) x1 (ix2 e (0 : Fin 1))).toInt = (r.val : ℤ)
        then Read.val_main_v12 (F := Ideal) (ix1 e) else 0)
      = (fun b' n' => if (seg x1 b' n').toInt = ((b.val * 400 + κ : ℕ) : ℤ) then (1 : EReal) else 0) (hi e) (lo e) := by
    intro e
    rw [v14_at, Read.val_main_v12_apply, Read.val_main_cst_0_apply, hrv]
    change (if _ then Ideal.ofBits .f32 0x3F800000#32 else 0) = _
    rw [Ideal.ofBits_one_f32]
  refine (Finset.sum_congr rfl (fun e _ => hs e)).trans ?_
  refine (sum_flat (fun b' n' => if (seg x1 b' n').toInt = ((b.val * 400 + κ : ℕ) : ℤ) then (1 : EReal) else 0)).trans ?_
  exact sum_cell x1 hr b κ hκ (fun _ _ => (1 : EReal))

/-- The segment means: row b · 400 + κ, column j is the cell mean. -/
theorem means_cell (hr : ∀ j, (x1 j).toNat < 400) (b : Fin 4) (κ : ℕ) (hκ : κ < 400) (r : Fin 1600)
    (hrv : r.val = b.val * 400 + κ) (j : Fin 64) :
    Read.val_main_v20 (F := Ideal) x0 x1 (ix2 r j) = Cert.Spec.cellMean x0 x1 b j κ := by
  rw [Read.val_main_v20_apply, sums_cell x0 x1 hr b κ hκ r hrv j, Read.val_main_v19_apply, Read.val_main_v18_apply,
    Read.val_main_v17_apply]
  have hi1 : Read.idx_main_v18 (Read.idx_main_v19 (ix2 r j)) = ix1 r := by
    funext a
    match a with
    | ⟨0, _⟩ => rfl
  rw [hi1, counts_cell x1 hr b κ hκ r hrv, Read.val_main_v16_apply, Read.val_main_cst_2_apply]
  change Ideal.div _ (max _ (Ideal.ofBits .f32 0x3F800000#32)) = _
  rw [Ideal.ofBits_one_f32]
  rfl

end Cells

section Result

variable (x0 : (⟨S4x64x262144, .f32⟩ : BufTy).Contents (Elt Ideal)) (x1 : (⟨S4x262144, .i32⟩ : BufTy).Contents (Elt Ideal))

/-- The row take: row e, column k of the taken rows is the mean of channel k over the cell e's pixel lies in. -/
theorem take_at (hr : ∀ j, (x1 j).toNat < 400) (e : Fin 1048576) (k : Fin 64) :
    Read.val_main_v27 (F := Ideal) x0 x1 (ix2 e k)
      = Cert.Spec.cellMean x0 x1 (hi e) k (x1 (ix2 (hi e) (lo e))).toNat := by
  unfold Read.val_main_v27
  rw [Cert.Lib.gather_rows _ rfl rfl rfl rfl rfl _ _ e k (by decide)]
  apply means_cell x0 x1 hr (hi e) _ (hr _)
  show min (Read.val_main_v26 (F := Ideal) x1 (ix2 e (0 : Fin 1))).toInt.toNat (1600 - 1)
    = (hi e).val * 400 + (x1 (ix2 (hi e) (lo e))).toNat
  rw [v26_at x1 hr]
  unfold seg
  rw [word_toInt _ _ (hr _) (hi e).isLt, Int.toNat_natCast]
  have h1 := hr (ix2 (hi e) (lo e))
  have h2 := (hi e).isLt
  omega

end Result

/-- With every cell number in 0 … 399 the reference's result is the specification's function of the inputs. -/
theorem ref_is_G (x0 : (⟨S4x64x262144, .f32⟩ : BufTy).Contents (Elt Ideal)) (x1 : (⟨S4x262144, .i32⟩ : BufTy).Contents (Elt Ideal))
    (hr : ∀ j, (x1 j).toNat < 400) :
    Cert.ReferenceIdeal.Read.val_main_v29 (F := Ideal) x0 x1 = Cert.Spec.G x0 x1 := by
  funext i
  obtain ⟨b, c, n, rfl⟩ : ∃ b c n, i = ix3 b c n := ⟨i 0, i 1, i 2, eq_ix3 i⟩
  rw [Read.val_main_v29_apply, Read.val_main_v28_apply, Cert.Spec.G_apply]
  have hidx : Read.idx_main_v28 (Read.idx_main_v29 (ix3 b c n)) = ix2 (flat b n) c := by
    funext a
    have hb := b.isLt
    have hc := c.isLt
    have hn := n.isLt
    match a with
    | ⟨0, _⟩ =>
      apply Fin.ext
      show ((b.val * 262144 + n.val) * 64 + c.val) / 64 = b.val * 262144 + n.val
      omega
    | ⟨1, _⟩ =>
      apply Fin.ext
      show ((b.val * 262144 + n.val) * 64 + c.val) % 64 = c.val
      omega
  rw [hidx, take_at x0 x1 hr, hi_flat, lo_flat]

end Cert.RefValue

end
-- ==== Proof.PreDecode.lean ====
/-
  What the precondition says of the two inputs: every feature is a real number, and every cell number lies in 0 … 399.
-/
import proofs.«415683_j86517821214971_3_alg».proof.Pre_finite_inputs
import Idealize.ShloMosaic.PureOps.Ideal
import Idealize.ShloMosaic.Lib.ReduceAll
import Idealize.ShloMosaic.Lib.StableHlo.Predicate

noncomputable section

namespace Cert.PreDecode

open Idealize.ShloMosaic

/-- The rank-0 shape has exactly one index. -/
instance subsingleton_scalar_idx : Subsingleton Cert.Pre_finite_inputs.S_.Idx :=
  ⟨fun a b => funext fun d => d.elim0⟩

/-- An extended real whose absolute value max x (-x) lies strictly below +∞ is a real number:
    +∞ has absolute value +∞, and so has -∞. -/
theorem exists_real_of_abs_lt_top (x : EReal) (h : max x (-x) < ⊤) : ∃ r : ℝ, x = (r : EReal) := by
  induction x using EReal.rec with
  | bot => simp at h
  | coe r => exact ⟨r, rfl⟩
  | top => simp at h

/-- A 32-bit word that is at least 0 and below 400 as a signed number has unsigned value below 400. -/
theorem toNat_lt_of_signed_range (w : BitVec 32) (h0 : IntOp.cmpi .sge w 0#32 = 1#1)
    (h1 : IntOp.cmpi .slt w 400#32 = 1#1) : w.toNat < 400 := by
  have z0 : (0#32 : BitVec 32).toInt = 0 := by decide
  have z4 : (400#32 : BitVec 32).toInt = 400 := by decide
  simp only [IntOp.cmpi, StableHlo.Predicate.ofBool_eq_one_iff, BitVec.sle, BitVec.slt, decide_eq_true_eq, z0, z4] at h0 h1
  rw [BitVec.toInt_eq_toNat_cond] at h0 h1
  split at h0 <;> omega

/-- The printed precondition all ones: the features are finite and the cell numbers are in range. -/
theorem pre_decode [Cert.Pre_finite_inputs.Facts] (x0 : FVec Ideal Cert.Pre_finite_inputs.S4x64x262144 .f32)
    (x1 : IVec Cert.Pre_finite_inputs.S4x262144 32)
    (h : Cert.Pre_finite_inputs.fn (F := Ideal) x0 x1 = fun _ => 1#1) :
    (∀ i, ∃ r : ℝ, x0 i = (r : EReal)) ∧ (∀ j, (x1 j).toNat < 400) := by
  -- the predicate at its one index: a conjunction of three all-reductions
  have h0 := congrFun h (fun a => a.elim0)
  dsimp only [Cert.Pre_finite_inputs.fn] at h0
  obtain ⟨h12, h3⟩ := IntOp.andi_eq_one.1 h0
  obtain ⟨h1, h2⟩ := IntOp.andi_eq_one.1 h12
  refine ⟨fun i => ?_, fun j => ?_⟩
  · -- the first conjunct at element i: |x0 i| = max (x0 i) (-(x0 i)) lies below the pattern 0x7F800000, which is +∞
    have e := Host.reduce_andi_all _ _ _ _ _ h1 i
    have top : Ideal.ofBits .f32 0x7F800000#32 = ⊤ := by simp [Ideal.ofBits, Ideal.ieee]
    change Ideal.cmp .olt (max (x0 i) (-(x0 i))) (Ideal.ofBits .f32 0x7F800000#32) = 1#1 at e
    rw [top] at e
    simp only [Ideal.cmp, StableHlo.Predicate.ofBool_eq_one_iff, decide_eq_true_eq] at e
    exact exists_real_of_abs_lt_top _ e
  · -- the second and third conjuncts at element j: 0 ≤ x1 j and x1 j < 400 as signed words
    have e0 := Host.reduce_andi_all _ _ _ _ _ h2 j
    have e4 := Host.reduce_andi_all _ _ _ _ _ h3 j
    change IntOp.cmpi .sge (x1 j) 0#32 = 1#1 at e0
    change IntOp.cmpi .slt (x1 j) 400#32 = 1#1 at e4
    exact toNat_lt_of_signed_range _ e0 e4

end Cert.PreDecode

end
-- ==== Proof.lean ====
/-
  The kernel computes, per image, the mean feature of each cell of pixels and hands every pixel the mean of its own
  cell: a one-hot matrix product per tile of 2048 pixels accumulates each cell's sum and count over the two halves of
  the image, the host divides, and a second one-hot product selects each pixel's mean (from a table that also carries
  the mean's difference from itself, which is zero on finite data). The reference does the same with an accumulating
  scatter and a row take over cell numbers offset by 400 per image. With every cell number in 0 … 399 (the reference's
  stated domain) no image's cells meet another's, and both programs compute the specification's function
  (Proof/Spec.lean): the claims below say that each program runs to its end leaving its inputs alone, and that the two
  idealized programs end with equal results.
-/
import proofs.«415683_j86517821214971_3_alg».proof.Defs
import proofs.«415683_j86517821214971_3_alg».proof.Proof.Gen.Kernel
import proofs.«415683_j86517821214971_3_alg».proof.Proof.Gen.KernelIdeal
import proofs.«415683_j86517821214971_3_alg».proof.Proof.Gen.ReferenceIdeal
import proofs.«415683_j86517821214971_3_alg».proof.Proof.Gen.Pre_finite_inputs
import proofs.«415683_j86517821214971_3_alg».proof.Proof.KRun
import proofs.«415683_j86517821214971_3_alg».proof.Proof.Bridge
import proofs.«415683_j86517821214971_3_alg».proof.Proof.RefValue
import proofs.«415683_j86517821214971_3_alg».proof.Proof.PreDecode

noncomputable section

namespace Cert.Proof

open Idealize.ShloMosaic Idealize.SL.Sem

/-- The word-level kernel program runs to its end and leaves its two inputs as launched. -/
theorem frame_k : Cert.frame_Kernel := fun m ρ _ =>
  (θ_run (Cert.Kernel.defs (F := Bits)) _ _).mono (fun _ h c => (h c).2) (Cert.Kernel.Fr.run_main (F := Bits) m ρ)

/-- So does the idealized kernel program. -/
theorem frame_ki : Cert.frame_KernelIdeal := fun m ρ _ =>
  (θ_run (Cert.KernelIdeal.defs (F := Ideal)) _ _).mono (fun _ h c => (h c).2) (Cert.KernelIdeal.Fr.run_main (F := Ideal) m ρ)

/-- And the idealized reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote nothing. -/
theorem preserves : Cert.preserves_Kernel_KernelIdeal := trivial

/-- From memories agreeing on the inputs, finite features and cell numbers in 0 … 399, both idealized programs end
    with the specification's function of the inputs. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ?_) (Cert.KernelIdeal.Fr.run_main (F := Ideal) m ρ)
    obtain ⟨hf, hr⟩ := Cert.PreDecode.pre_decode _ _ (hpre c)
    exact ⟨(h c).1.trans (Cert.KernelIdeal.Val.result_eq m c hf hr), (h c).2.1, (h c).2.2⟩
  · refine (θ_run (Cert.ReferenceIdeal.defs (F := Ideal)) _ _).mono (fun r h c => ?_) (Cert.ReferenceIdeal.Value.run (F := Ideal) m' ρ')
    obtain ⟨hf, hr⟩ := Cert.PreDecode.pre_decode _ _ (hpre c)
    refine ⟨?_, (h c).2.1, (h c).2.2⟩
    refine ((h c).1.trans (Cert.ReferenceIdeal.Read.val_main_v29_eq _ _)).trans ?_
    rw [(hagree c).1, (hagree c).2]
    exact Cert.RefValue.ref_is_G _ _ hr

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
